-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x4096 : Shape := ⟨3, ![16, 128, 4096]⟩
abbrev S4096x128 : Shape := ⟨2, ![4096, 128]⟩
abbrev S128 : Shape := ⟨1, ![128]⟩
abbrev S_ : Shape := ⟨0, ![]⟩

class Facts : Prop where
  bcast_S_S16x128x4096 : S_.BroadcastsInDim S16x128x4096 (![] : Fin 0 → Fin S16x128x4096.rank)
  reducesTo_S16x128x4096_S_d0_1_2 : S16x128x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x128x4096 .f32) (main_arg1 : FVec F S4096x128 .f32) (main_arg2 : FVec F S128 .f32) (main_arg3 : FVec F S128 .f32) : IVec S_ 1 :=
  let main_v0 : FVec F S16x128x4096 .f32 := Host.absf main_arg0
  let main_cst : FVec F S_ .f32 := constant S_ .f32 0x7F800000#32
  let main_v1 : FVec F S16x128x4096 .f32 := broadcastInDim S16x128x4096 ![] bcast_S_S16x128x4096 main_cst
  let main_v2 : IVec S16x128x4096 1 := cmpf .olt main_v0 main_v1
  let main_c : IVec S_ 1 := constantI S_ 1 1#1
  let main_v3 : IVec S_ 1 := (fun x v => Host.reduce IntOp.andi x v reducesTo_S16x128x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x128x4096 : Shape := ⟨3, ![16, 128, 4096]⟩
abbrev S4096x128 : Shape := ⟨2, ![4096, 128]⟩
abbrev S128 : Shape := ⟨1, ![128]⟩
abbrev S2048x4096 : Shape := ⟨2, ![2048, 4096]⟩
abbrev S128x4096 : Shape := ⟨2, ![128, 4096]⟩
abbrev S128x1 : Shape := ⟨2, ![128, 1]⟩
abbrev S512x4096 : Shape := ⟨2, ![512, 4096]⟩
abbrev S4x128x4096 : Shape := ⟨3, ![4, 128, 4096]⟩
abbrev S1x128x4096 : Shape := ⟨3, ![1, 128, 4096]⟩
abbrev S4x4096 : Shape := ⟨2, ![4, 4096]⟩
abbrev S4x1x4096 : Shape := ⟨3, ![4, 1, 4096]⟩
abbrev S1x128x1 : Shape := ⟨3, ![1, 128, 1]⟩

abbrev nBuf : Space → Nat
  | .hbm => 10
  | .vmem => 7
  | .smem => 0
  | _ => 0

abbrev bufTy : (tb : Table) → Fin (tcTables nBuf tb) → BufTy
  | .hbm, ⟨0, _⟩ => ⟨S16x128x4096, .f32⟩
  | .hbm, ⟨1, _⟩ => ⟨S4096x128, .f32⟩
  | .hbm, ⟨2, _⟩ => ⟨S128, .f32⟩
  | .hbm, ⟨3, _⟩ => ⟨S128, .f32⟩
  | .hbm, ⟨4, _⟩ => ⟨S2048x4096, .f32⟩
  | .hbm, ⟨5, _⟩ => ⟨S128x4096, .f32⟩
  | .hbm, ⟨6, _⟩ => ⟨S128x1, .f32⟩
  | .hbm, ⟨7, _⟩ => ⟨S128x1, .f32⟩
  | .hbm, ⟨8, _⟩ => ⟨S2048x4096, .f32⟩
  | .hbm, ⟨9, _⟩ => ⟨S16x128x4096, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S128x1, .f32⟩
  | .local _ .vmem, ⟨4, _⟩ => ⟨S128x1, .f32⟩
  | .local _ .vmem, ⟨5, _⟩ => ⟨S512x4096, .f32⟩
  | .local _ .vmem, ⟨6, _⟩ => ⟨S512x4096, .f32⟩
  | _, _ => ⟨S16x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x128x4096_S2048x4096 : S16x128x4096.ShapeCasts S2048x4096
  transposes_S4096x128_S128x4096_1_0 : S4096x128.Transposes [1, 0] S128x4096
  shapeCasts_S128_S128x1 : S128.ShapeCasts S128x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S512x4096_S4x128x4096 : S512x4096.ShapeCasts S4x128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S1x128x4096 : S128x4096.ShapeCasts S1x128x4096
  broadcasts_S1x128x4096_S4x128x4096 : S1x128x4096.Broadcasts S4x128x4096
  reduces_S4x128x4096_S4x4096 : S4x128x4096.Reduces [1] S4x4096
  shapeCasts_S4x4096_S4x1x4096 : S4x4096.ShapeCasts S4x1x4096
  broadcasts_S4x1x4096_S4x128x4096 : S4x1x4096.Broadcasts S4x128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  broadcasts_S1x128x1_S4x128x4096 : S1x128x1.Broadcasts S4x128x4096
  shapeCasts_S4x128x4096_S512x4096 : S4x128x4096.ShapeCasts S512x4096
  shapeCasts_S2048x4096_S16x128x4096 : S2048x4096.ShapeCasts S16x128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .f32 = 32 ∨ (Rect.block (s := S2048x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S2048x4096.size a
  hwx0_4 : ∀ i : grid0.Coords, EltTy.bits .f32 = 32 ∨ (Rect.block (s := S2048x4096) S512x4096.size (cc0_transform_4 i) (hinb0_4 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x128x4096 : Shape := ⟨3, ![16, 128, 4096]⟩
abbrev S4096x128 : Shape := ⟨2, ![4096, 128]⟩
abbrev S128 : Shape := ⟨1, ![128]⟩
abbrev S4096 : Shape := ⟨1, ![4096]⟩
abbrev S16x4096x128 : Shape := ⟨3, ![16, 4096, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x128 : Shape := ⟨3, ![1, 4096, 128]⟩
abbrev S16x4096 : Shape := ⟨2, ![16, 4096]⟩
abbrev S16x4096x1 : Shape := ⟨3, ![16, 4096, 1]⟩
abbrev S1x1x128 : Shape := ⟨3, ![1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S16x128x4096, .f32⟩
  | .hbm, ⟨1, _⟩ => ⟨S4096x128, .f32⟩
  | .hbm, ⟨2, _⟩ => ⟨S128, .f32⟩
  | .hbm, ⟨3, _⟩ => ⟨S128, .f32⟩
  | .hbm, ⟨4, _⟩ => ⟨S4096, .i32⟩
  | .hbm, ⟨5, _⟩ => ⟨S16x4096x128, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x128, .f32⟩
  | .hbm, ⟨25, _⟩ => ⟨S4096x128, .i1⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S1x4096x128, .f32⟩
  | .hbm, ⟨30, _⟩ => ⟨S16x4096x128, .f32⟩
  | .hbm, ⟨31, _⟩ => ⟨S16x4096x128, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S_, .i32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S16x4096x128, .f32⟩
  | .hbm, ⟨46, _⟩ => ⟨S16x4096x128, .f32⟩
  | .hbm, ⟨47, _⟩ => ⟨S16x4096x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S16x4096x1, .f32⟩
  | .hbm, ⟨55, _⟩ => ⟨S16x4096x1, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S16x4096x128, .f32⟩
  | .hbm, ⟨63, _⟩ => ⟨S16x4096x128, .f32⟩
  | .hbm, ⟨64, _⟩ => ⟨S_, .f32⟩
  | .hbm, ⟨65, _⟩ => ⟨S16x4096x1, .f32⟩
  | .hbm, ⟨66, _⟩ => ⟨S16x4096x1, .f32⟩
  | .hbm, ⟨67, _⟩ => ⟨S16x4096x1, .f32⟩
  | .hbm, ⟨68, _⟩ => ⟨S16x4096x128, .f32⟩
  | .hbm, ⟨69, _⟩ => ⟨S16x4096x128, .f32⟩
  | .hbm, ⟨70, _⟩ => ⟨S1x1x128, .f32⟩
  | .hbm, ⟨71, _⟩ => ⟨S16x4096x128, .f32⟩
  | .hbm, ⟨72, _⟩ => ⟨S16x4096x128, .f32⟩
  | .hbm, ⟨73, _⟩ => ⟨S1x1x128, .f32⟩
  | .hbm, ⟨74, _⟩ => ⟨S16x4096x128, .f32⟩
  | .hbm, ⟨75, _⟩ => ⟨S16x4096x128, .f32⟩
  | .hbm, ⟨76, _⟩ => ⟨S16x128x4096, .f32⟩
  | _, _ => ⟨S16x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_c : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_cst_3 : Ref sig .tc := ⟨.hbm, 56, rfl⟩
abbrev main_call1_v13 : Ref sig .tc := ⟨.hbm, 57, rfl⟩
abbrev main_call1_cst_4 : Ref sig .tc := ⟨.hbm, 58, rfl⟩
abbrev main_call1_call0_v0 : Ref sig .tc := ⟨.hbm, 59, rfl⟩
abbrev main_call1_call0_v1 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_1 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩

abbrev nD : Nat := 1
abbrev τ : Topo := Topo.v7x

variable {F : FTy → Type} [FloatOps F]

class Facts₀ : Prop where
  transposes_S16x128x4096_S16x4096x128_0_2_1 : S16x128x4096.Transposes [0, 2, 1] S16x4096x128
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S4096x128_S1x4096x128_1_2 : S4096x128.BroadcastsInDim S1x4096x128 (![1, 2] : Fin 2 → Fin S1x4096x128.rank)
  bcast_S1x4096x128_S16x4096x128_0_1_2 : S1x4096x128.BroadcastsInDim S16x4096x128 (![0, 1, 2] : Fin 3 → Fin S16x4096x128.rank)
  reducesTo_S16x4096x128_S16x4096_d2 : S16x4096x128.ReducesTo [2] S16x4096
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  bcast_S128_S1x1x128_2 : S128.BroadcastsInDim S1x1x128 (![2] : Fin 1 → Fin S1x1x128.rank)
  bcast_S1x1x128_S16x4096x128_0_1_2 : S1x1x128.BroadcastsInDim S16x4096x128 (![0, 1, 2] : Fin 3 → Fin S16x4096x128.rank)
  transposes_S16x4096x128_S16x128x4096_0_2_1 : S16x4096x128.Transposes [0, 2, 1] S16x128x4096
  gather_S4096x128_S4096x1_S4096x128_1_0_n_n_0_1_1128_wf : GatherDims.WF S4096x128 S4096x1 S4096x128 [1] [0] [] [0] [] 1 ![1, 128]

variable [Facts₀]

def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf

class Facts : Prop extends Facts₀ where

variable [Facts]
-- ==== Proof.Spec.lean ====
/-
  The specification both programs meet, and the one law that joins their two spellings.

  For a batch entry `bi` and a position `l` write `u k = x[bi, k, l] + pos_emb[l, k]` for the 128 features `k`.
  Both programs return, at `[bi, d, l]`, the layer normalisation of the row `u` at feature `d`, scaled by `gamma[d]`
  and shifted by `beta[d]`.  They spell it differently:

  * the kernel (`kerRow`): mean `m = (∑ u) · 2⁻⁷`, variance `(∑ u²) · 2⁻⁷ − m²`, and the product with the
    reciprocal square root of (variance + ε);
  * the reference (`refRow`): mean `(0 + ∑ u) / 128`, variance `(0 + ∑ (u − m)²) / (128 − 0)` (guarded by a
    select on `128 − 0 > 0` whose other arm is the not-a-number word), and the quotient by the square root of
    (variance + ε).

  On rows of real numbers the two agree (`refRow_eq_kerRow`): `2⁻⁷` is exactly `1/128`, the mean of the squared
  deviations is the mean of the squares less the squared mean, the variance is nonnegative so that variance + ε is
  positive, and a quotient by a positive square root is the product with the reciprocal square root.  The second
  step distributes a product over a sum, which is why the entries must be real.
-/
import Idealize.ShloMosaic.PureOps.Ideal
import Idealize.ShloMosaic.Lib.ValueIdx

noncomputable section

open scoped BigOperators

namespace Cert.LayerNorm

open Idealize.ShloMosaic Idealize.ShloMosaic.ValueIdx

/-- The activations' shape [batch, feature, position], the position table's [position, feature], a feature vector's. -/
abbrev SX : Shape := ⟨3, ![16, 128, 4096]⟩
abbrev SP : Shape := ⟨2, ![4096, 128]⟩
abbrev SV : Shape := ⟨1, ![128]⟩

/-- The word `2⁻⁷` the kernel multiplies sums by, the word `128` the reference divides them by, the shared ε,
    the zero a host sum starts from, and the not-a-number word of the reference's guarded arm. -/
abbrev wInv : EReal := Ideal.ofBits .f32 0x3C000000#32
abbrev wCnt : EReal := Ideal.ofBits .f32 0x43000000#32
abbrev wEps : EReal := Ideal.ofBits .f32 0x3727C5AC#32
abbrev wZero : EReal := Ideal.ofBits .f32 0x00000000#32
abbrev wNan : EReal := Ideal.ofBits .f32 0x7FC00000#32

/-- The kernel's spelling of one normalised, scaled and shifted entry of a row `u`. -/
def kerRow (u : Fin 128 → EReal) (d : Fin 128) (g b : EReal) : EReal :=
  ((u d - (∑ k, u k) * wInv)
      * Ideal.rsqrt ((∑ k, u k * u k) * wInv - ((∑ k, u k) * wInv) * ((∑ k, u k) * wInv) + wEps)) * g + b

/-- The reference's mean of a row. -/
def refMean (u : Fin 128 → EReal) : EReal := Ideal.div (wZero + ∑ k, u k) wCnt

/-- The reference's divisor of the squared deviations: the count less the zero degrees of freedom, an integer
    zero converted. -/
def refCount : EReal := wCnt - (((0#32 : BitVec 32).toInt : ℝ) : EReal)

/-- The reference's variance of a row, with its guard. -/
def refVar (u : Fin 128 → EReal) : EReal :=
  Scalar.select (Ideal.cmp .ogt refCount wZero)
    (Ideal.div (wZero + ∑ k, (u k - refMean u) * (u k - refMean u)) refCount) wNan

/-- The reference's spelling of the same entry. -/
def refRow (u : Fin 128 → EReal) (d : Fin 128) (g b : EReal) : EReal :=
  Ideal.div (u d - refMean u) (Ideal.sqrt (refVar u + wEps)) * g + b

/-- The whole result array as one function of the four argument arrays. -/
def G (x : FVec Ideal SX .f32) (pe : FVec Ideal SP .f32) (g b : FVec Ideal SV .f32) : FVec Ideal SX .f32 :=
  fun i => kerRow (fun k => x (ix3 (i 0) k (i 2)) + pe (ix2 (i 2) k)) (i 1) (g (ix1 (i 1))) (b (ix1 (i 1)))

theorem G_apply (x : FVec Ideal SX .f32) (pe : FVec Ideal SP .f32) (g b : FVec Ideal SV .f32)
    (bi : Fin 16) (d : Fin 128) (l : Fin 4096) :
    G x pe g b (ix3 bi d l) = kerRow (fun k => x (ix3 bi k l) + pe (ix2 l k)) d (g (ix1 d)) (b (ix1 d)) := rfl

/-! ## What the five words denote -/

theorem wInv_eq : wInv = ((1 / 128 : ℝ) : EReal) := by
  simp [Ideal.ofBits, Ideal.ieee, -EReal.coe_mul]; norm_num

theorem wCnt_eq : wCnt = ((128 : ℝ) : EReal) := by
  simp [Ideal.ofBits, Ideal.ieee, -EReal.coe_mul]; norm_num

theorem wZero_eq : wZero = 0 := by
  simp [Ideal.ofBits, Ideal.ieee]

/-- ε is a positive real; its value is never needed. -/
theorem wEps_pos : ∃ ε : ℝ, 0 < ε ∧ wEps = (ε : EReal) := by
  refine ⟨_, ?_, by simp [Ideal.ofBits, Ideal.ieee, -EReal.coe_mul]; rfl⟩
  positivity

/-! ## Sums of reals inside the extended reals, and the variance identity -/

/-- A finite sum of real numbers, taken in the extended reals, is the real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Over 128 reals, the sum of the squared deviations from the mean is the sum of the squares less the squared sum
    over 128. -/
theorem sum_sq_dev (r : Fin 128 → ℝ) :
    ∑ k, (r k - (∑ j, r j) / 128) * (r k - (∑ j, r j) / 128) = (∑ k, r k * r k) - (∑ k, r k) * (∑ k, r k) / 128 := by
  have h : ∀ k, (r k - (∑ j, r j) / 128) * (r k - (∑ j, r j) / 128)
      = r k * r k - 2 * ((∑ j, r j) / 128) * r k + ((∑ j, r j) / 128) * ((∑ j, r j) / 128) := fun k => by ring
  simp only [h, Finset.sum_add_distrib, Finset.sum_sub_distrib, ← Finset.mul_sum, Finset.sum_const, Finset.card_univ,
    Fintype.card_fin, nsmul_eq_mul]
  push_cast; ring

/-! ## The two spellings on a real row -/

/-- The variance of a real row, as the reference takes it. -/
def varOf (r : Fin 128 → ℝ) : ℝ := (∑ k, (r k - (∑ j, r j) / 128) * (r k - (∑ j, r j) / 128)) / 128

theorem varOf_nonneg (r : Fin 128 → ℝ) : 0 ≤ varOf r :=
  div_nonneg (Finset.sum_nonneg fun k _ => mul_self_nonneg _) (by norm_num)

/-- The kernel's spelling of the same variance. -/
theorem varOf_eq (r : Fin 128 → ℝ) :
    varOf r = (∑ k, r k * r k) * (1 / 128) - ((∑ k, r k) * (1 / 128)) * ((∑ k, r k) * (1 / 128)) := by
  unfold varOf; rw [sum_sq_dev]; ring

theorem refMean_coe (r : Fin 128 → ℝ) : refMean (fun k => (r k : EReal)) = (((∑ k, r k) / 128 : ℝ) : EReal) := by
  unfold refMean
  rw [wZero_eq, zero_add, coe_sum, wCnt_eq, Ideal.div_coe (by norm_num), ← EReal.coe_mul]
  congr 1; ring

theorem refCount_eq : refCount = ((128 : ℝ) : EReal) := by
  unfold refCount
  rw [wCnt_eq]
  simp

theorem refVar_coe (r : Fin 128 → ℝ) : refVar (fun k => (r k : EReal)) = ((varOf r : ℝ) : EReal) := by
  unfold refVar
  have hc : Ideal.cmp .ogt refCount wZero = 1#1 := by
    rw [refCount_eq, wZero_eq]; simp [Ideal.cmp]
  rw [hc, select_one, refMean_coe, refCount_eq, wZero_eq, zero_add]
  simp only [← EReal.coe_sub, ← EReal.coe_mul]
  rw [coe_sum, Ideal.div_coe (by norm_num), ← EReal.coe_mul]
  congr 1; unfold varOf; ring

/-- THE LAW: on a row of real numbers the reference's spelling is the kernel's. -/
theorem refRow_eq_kerRow (u : Fin 128 → EReal) (hu : ∀ k, ∃ r : ℝ, u k = (r : EReal)) (d : Fin 128) (g b : EReal) :
    refRow u d g b = kerRow u d g b := by
  choose r hr using hu
  obtain rfl : u = fun k => (r k : EReal) := funext hr
  obtain ⟨ε, hε, hE⟩ := wEps_pos
  have hy : 0 < varOf r + ε := add_pos_of_nonneg_of_pos (varOf_nonneg r) hε
  have hs : Real.sqrt (varOf r + ε) ≠ 0 := (Real.sqrt_pos.mpr hy).ne'
  -- the reference: a quotient by the square root of the positive real (variance + ε)
  have hR : refRow (fun k => (r k : EReal)) d g b
      = ((r d - (∑ k, r k) / 128 : ℝ) : EReal) * (((Real.sqrt (varOf r + ε))⁻¹ : ℝ) : EReal) * g + b := by
    unfold refRow
    rw [refMean_coe, refVar_coe, hE, ← EReal.coe_add, ← EReal.coe_sub]
    have : Ideal.sqrt ((varOf r + ε : ℝ) : EReal) = ((Real.sqrt (varOf r + ε) : ℝ) : EReal) := by
      show (if varOf r + ε < 0 then (⊥ : EReal) else _) = _
      rw [if_neg (not_lt.mpr hy.le)]
    rw [this, Ideal.div_coe hs, one_div]
  -- the kernel: the product with the reciprocal square root of the same real
  have hK : kerRow (fun k => (r k : EReal)) d g b
      = ((r d - (∑ k, r k) / 128 : ℝ) : EReal) * (((Real.sqrt (varOf r + ε))⁻¹ : ℝ) : EReal) * g + b := by
    unfold kerRow
    simp only [← EReal.coe_mul]
    rw [coe_sum, coe_sum, wInv_eq, hE]
    simp only [← EReal.coe_mul, ← EReal.coe_sub, ← EReal.coe_add]
    rw [← varOf_eq]
    have : Ideal.rsqrt ((varOf r + ε : ℝ) : EReal) = (((Real.sqrt (varOf r + ε))⁻¹ : ℝ) : EReal) := by
      show (if varOf r + ε < 0 then (⊥ : EReal) else if varOf r + ε = 0 then ⊤ else _) = _
      rw [if_neg (not_lt.mpr hy.le), if_neg hy.ne']
    rw [this, ← EReal.coe_mul]
    congr 3; ring
  rw [hR, hK]

end Cert.LayerNorm

end
-- ==== Proof.KerPayload.lean ====
/-
  The kernel body's one stored value, read at an index.

  The body loads a 512 × 4096 block of the flattened activations (four batch entries of 128 features each), the
  whole 128 × 4096 transposed position table and the two feature columns, and stores one 512 × 4096 value.  Row
  `128·n + d` of the block is feature `d` of the block's `n`-th batch entry, so at (128·n + d, l) the stored value
  is the kernel's spelling of the layer normalisation of the row `k ↦ block[128·n + k, l] + table[k, l]` at
  feature `d`, scaled and shifted by the two columns at `d`.
-/
import proofs.«158804_g21612275433595_cont_8to1_1535_8_alg».proof.Proof.Gen.KernelIdeal.Skeleton
import proofs.«158804_g21612275433595_cont_8to1_1535_8_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx Cert.LayerNorm

/-- Row `128·n + k` of a 512-row block. -/
abbrev blkRow (n : Fin 4) (k : Fin 128) : Fin 512 := ⟨128 * n.val + k.val, by have := n.isLt; have := k.isLt; omega⟩

namespace Pay

/-! ## The layout operations of the body, each read at an index given by coordinates -/

section Layout
variable {α : Type}

/-- The 512 × 4096 block regrouped as 4 × 128 × 4096 reads, at (n, d, l), the block's row `128·n + d` at `l`. -/
theorem cast_rows_apply (x : S512x4096.Idx → α) (h : S512x4096.ShapeCasts S4x128x4096)
    (n : Fin 4) (d : Fin 128) (l : Fin 4096) :
    shapeCast S4x128x4096 x h (ix3 n d l) = x (ix2 (blkRow n d) l) :=
  shapeCast_apply x h _ _ (by
    rw [Shape.rowMajor_val_two, Shape.rowMajor_val_three]
    show (128 * n.val + d.val) * 4096 + l.val = (n.val * 128 + d.val) * 4096 + l.val
    omega)

/-- The 4 × 128 × 4096 value flattened back to 512 × 4096 reads, at (128·n + d, l), the value at (n, d, l). -/
theorem cast_flat_apply (x : S4x128x4096.Idx → α) (h : S4x128x4096.ShapeCasts S512x4096)
    (n : Fin 4) (d : Fin 128) (l : Fin 4096) :
    shapeCast S512x4096 x h (ix2 (blkRow n d) l) = x (ix3 n d l) :=
  shapeCast_apply x h _ _ (by
    rw [Shape.rowMajor_val_two, Shape.rowMajor_val_three]
    show (n.val * 128 + d.val) * 4096 + l.val = (128 * n.val + d.val) * 4096 + l.val
    omega)

/-- The lane sums 4 × 4096 given a unit middle axis read, at (n, u, l), the sums at (n, l). -/
theorem cast_keep_apply (x : S4x4096.Idx → α) (h : S4x4096.ShapeCasts S4x1x4096)
    (n : Fin 4) (u : Fin 1) (l : Fin 4096) :
    shapeCast S4x1x4096 x h (ix3 n u l) = x (ix2 n l) :=
  shapeCast_apply x h _ _ (by
    have hu : u.val = 0 := by omega
    rw [Shape.rowMajor_val_two, Shape.rowMajor_val_three]
    show n.val * 4096 + l.val = (n.val * 1 + u.val) * 4096 + l.val
    rw [hu, Nat.mul_one, Nat.add_zero])

/-- The one 128 × 4096 table repeated over the four batch entries reads, at (n, d, l), the table at (0, d, l). -/
theorem bcast_batch_apply (v : S1x128x4096.Idx → α) (h : S1x128x4096.Broadcasts S4x128x4096)
    (n : Fin 4) (d : Fin 128) (l : Fin 4096) :
    broadcastTo S4x128x4096 v h (ix3 n d l) = v (ix3 (0 : Fin 1) d l) := by
  refine broadcastTo_apply v h (ix3 n d l) (ix3 (0 : Fin 1) d l) fun ax => ?_
  match ax with
  | ⟨0, _⟩ => rfl
  | ⟨1, _⟩ => rfl
  | ⟨2, _⟩ => rfl

/-- A per-(batch entry, position) value repeated over the 128 features reads, at (n, d, l), the value at (n, 0, l). -/
theorem bcast_feat_apply (v : S4x1x4096.Idx → α) (h : S4x1x4096.Broadcasts S4x128x4096)
    (n : Fin 4) (d : Fin 128) (l : Fin 4096) :
    broadcastTo S4x128x4096 v h (ix3 n d l) = v (ix3 n (0 : Fin 1) l) := by
  refine broadcastTo_apply v h (ix3 n d l) (ix3 n (0 : Fin 1) l) fun ax => ?_
  match ax with
  | ⟨0, _⟩ => rfl
  | ⟨1, _⟩ => rfl
  | ⟨2, _⟩ => rfl

/-- A feature column repeated over batch entries and positions reads, at (n, d, l), the column at (0, d, 0). -/
theorem bcast_col_apply (v : S1x128x1.Idx → α) (h : S1x128x1.Broadcasts S4x128x4096)
    (n : Fin 4) (d : Fin 128) (l : Fin 4096) :
    broadcastTo S4x128x4096 v h (ix3 n d l) = v (ix3 (0 : Fin 1) d (0 : Fin 1)) := by
  refine broadcastTo_apply v h (ix3 n d l) (ix3 (0 : Fin 1) d (0 : Fin 1)) fun ax => ?_
  match ax with
  | ⟨0, _⟩ => rfl
  | ⟨1, _⟩ => rfl
  | ⟨2, _⟩ => rfl

end Layout

/-- A reciprocal square root at an index is the extended reals' reciprocal square root of the element. -/
theorem rsqrt_apply {s : Shape} {φ : FTy} (v : FVec Ideal s φ) (i : s.Idx) : rsqrt v i = Ideal.rsqrt (v i) := rfl

/-- The sum over the feature axis of a 4 × 128 × 4096 value reads, at (n, l), the sum over `k` of the value at
    (n, k, l). -/
theorem sum_feat_apply (src : FVec Ideal S4x128x4096 .f32) (h : S4x128x4096.Reduces [1] S4x4096)
    (hφ : FKind.Formats .f32) (hacc : (0x00000000#32 : BitVec 32) = 0x00000000#32) (n : Fin 4) (l : Fin 4096) :
    multiReduction (F := Ideal) .add [1] S4x4096 src 0x00000000#32 h hφ hacc (ix2 n l)
      = ∑ k : Fin 128, src (ix3 n k l) := by
  refine (Ideal.multiReduction_add_single src 0x00000000#32 h hφ hacc (ix2 n l)).trans ?_
  show ∑ k : Fin 128, src (h.lift (ix2 n l) k) = ∑ k : Fin 128, src (ix3 n k l)
  refine Finset.sum_congr rfl fun k _ => congrArg src (funext fun c => Fin.ext ?_)
  match c with
  | ⟨0, _⟩ => rfl
  | ⟨1, _⟩ => rfl
  | ⟨2, _⟩ => rfl

end Pay

open Pay

/-- The stored value at (128·n + d, l). -/
theorem pay_apply (x0 : Vec Ideal S512x4096 .f32) (x1 : Vec Ideal S128x4096 .f32) (x2 x3 : Vec Ideal S128x1 .f32)
    (n : Fin 4) (d : Fin 128) (l : Fin 4096) :
    k0_pay1 (F := Ideal) x0 x1 x2 x3 (ix2 (blkRow n d) l)
      = kerRow (fun k => x0 (ix2 (blkRow n k) l) + x1 (ix2 k l)) d (x2 (ix2 d 0)) (x3 (ix2 d 0)) := by
  unfold k0_pay1 kerRow
  simp only [shapeCast_self]
  rw [cast_flat_apply]
  simp only [addf_apply, mulf_apply, subf_apply, rsqrt_apply, bcast_col_apply, bcast_feat_apply, bcast_batch_apply,
    cast_rows_apply, cast_keep_apply, shapeCast_ab_1ab_apply, broadcast_apply]
  rw [sum_feat_apply, sum_feat_apply]
  simp only [addf_apply, mulf_apply, bcast_batch_apply, cast_rows_apply, shapeCast_ab_1ab_apply]
  rfl

end Cert.KernelIdeal.HandValue

end
-- ==== Proof.KerBlocks.lean ====
/-
  The kernel's flattened output array after the region.

  Grid point `t` writes back rows `512·t … 512·t + 511` of the 2048 × 4096 output, computed from the same rows of
  the flattened activations and from the whole transposed position table and feature columns.  A 512-row block
  holds four batch entries of 128 features, and 512 is a multiple of 128, so row `r` of the whole array belongs to
  the group of 128 rows starting at `128·(r / 128)` and is feature `r % 128` of it — the same group whether counted
  inside the block or in the whole array.  Hence every block is the restriction of one whole-array function `G4`,
  the blocks tile the array, and the array ends holding `G4` of the arrays the region found.
-/
import proofs.«158804_g21612275433595_cont_8to1_1535_8_alg».proof.Proof.Gen.KernelIdeal.Frame
import proofs.«158804_g21612275433595_cont_8to1_1535_8_alg».proof.Proof.KerPayload
import proofs.«158804_g21612275433595_cont_8to1_1535_8_alg».proof.Proof.Spec

noncomputable section

namespace Cert.KernelIdeal.HandValue

open Cert.KernelIdeal Cert.KernelIdeal.Gen Idealize.ShloMosaic Idealize.ShloMosaic.TcCoe Idealize.SL.Sem Idealize.ShloMosaic.ValueIdx Cert.LayerNorm

/-- The feature a row of the flattened array is, and row `k` of that row's group of 128. -/
abbrev featOf (r : Fin 2048) : Fin 128 := ⟨r.val % 128, Nat.mod_lt _ (by decide)⟩
abbrev rowOf (r : Fin 2048) (k : Fin 128) : Fin 2048 := ⟨128 * (r.val / 128) + k.val, by have := r.isLt; have := k.isLt; omega⟩

/-- The flattened output as one function of the flattened activations, the transposed table and the two columns. -/
def G4 (a0 : FVec Ideal S2048x4096 .f32) (a1 : FVec Ideal S128x4096 .f32) (a2 a3 : FVec Ideal S128x1 .f32) :
    FVec Ideal S2048x4096 .f32 :=
  fun i => kerRow (fun k => a0 (ix2 (rowOf (i 0) k) (i 1)) + a1 (ix2 k (i 1))) (featOf (i 0))
    (a2 (ix2 (featOf (i 0)) 0)) (a3 (ix2 (featOf (i 0)) 0))

theorem G4_apply (a0 : FVec Ideal S2048x4096 .f32) (a1 : FVec Ideal S128x4096 .f32) (a2 a3 : FVec Ideal S128x1 .f32)
    (r : Fin 2048) (l : Fin 4096) :
    G4 a0 a1 a2 a3 (ix2 r l) = kerRow (fun k => a0 (ix2 (rowOf r k) l) + a1 (ix2 k l)) (featOf r)
      (a2 (ix2 (featOf r) 0)) (a3 (ix2 (featOf r) 0)) := rfl

/-- The zero offsets of a whole-buffer rectangle are the constant zero. -/
theorem origin_zero : (![0, 0] : Fin 2 → Nat) = fun _ => 0 := funext fun a => by fin_cases a <;> rfl

/-! ## The block indices over the four grid points -/

/-- The activations' block moves with the output's along the rows and both stay at column block 0; the table and the
    two columns are always block (0, 0); the output's row block is at most 3. -/
theorem blockIndex_facts : ∀ t : Fin cfg0.N,
    win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 3 :=
  (by decide +kernel : ∀ t : Fin grid0.N, _)

/-- Each of the four row blocks of the output is some grid point's. -/
theorem blockIndex_onto : ∀ q : Fin 4, ∃ t : Fin cfg0.N, win0_4.index t = ![q.val, 0] :=
  (by decide +kernel : ∀ q : Fin 4, ∃ t : Fin grid0.N, win0_4.index t = ![q.val, 0])

/-! ## One 512-row block of the stored value is the same rows of G4 -/

/-- If a block holds rows 512·T … 512·T + 511 of the activations and the whole table and columns, the stored
    value at row r of the block is G4 at row 512·T + r: the group of 128 rows containing 512·T + 128·n + d starts at
    512·T + 128·n, and the row is feature d of it. -/
theorem stored_eq_G4 (a0 : FVec Ideal S2048x4096 .f32) (a1 : FVec Ideal S128x4096 .f32) (a2 a3 : FVec Ideal S128x1 .f32)
    (T : Nat) (hT : T ≤ 3)
    (x0 : Vec Ideal S512x4096 .f32) (x1 : Vec Ideal S128x4096 .f32) (x2 x3 : Vec Ideal S128x1 .f32)
    (h0 : ∀ (r : Fin 512) (l : Fin 4096), x0 (ix2 r l) = a0 (ix2 ⟨512 * T + r.val, by have := r.isLt; omega⟩ l))
    (h1 : x1 = a1) (h2 : x2 = a2) (h3 : x3 = a3) (r : Fin 512) (l : Fin 4096) :
    k0_pay1 (F := Ideal) x0 x1 x2 x3 (ix2 r l)
      = G4 a0 a1 a2 a3 (ix2 ⟨512 * T + r.val, by have := r.isLt; omega⟩ l) := by
  subst h1 h2 h3
  obtain ⟨n, d, rfl⟩ : ∃ (n : Fin 4) (d : Fin 128), r = blkRow n d :=
    ⟨⟨r.val / 128, by have := r.isLt; omega⟩, ⟨r.val % 128, Nat.mod_lt _ (by decide)⟩,
      Fin.ext (by show r.val = 128 * (r.val / 128) + r.val % 128; omega)⟩
  rw [pay_apply, G4_apply]
  have hn := n.isLt
  have hd := d.isLt
  have hf : featOf ⟨512 * T + (blkRow n d).val, by show 512 * T + (128 * n.val + d.val) < 2048; omega⟩ = d :=
    Fin.ext (by show (512 * T + (128 * n.val + d.val)) % 128 = d.val; omega)
  have hrow : ∀ k : Fin 128, rowOf ⟨512 * T + (blkRow n d).val, by show 512 * T + (128 * n.val + d.val) < 2048; omega⟩ k
      = ⟨512 * T + (blkRow n k).val, by have := k.isLt; show 512 * T + (128 * n.val + k.val) < 2048; omega⟩ := fun k =>
    Fin.ext (by show 128 * ((512 * T + (128 * n.val + d.val)) / 128) + k.val = 512 * T + (128 * n.val + k.val); omega)
  simp only [hf, hrow, h0]

/-! ## The input blocks at a grid point, read off the arrays -/

/-- Row r of point t's activations block is row 512·(block index) + r of the flattened activations. -/
theorem actBlock_apply (m : (ℓ : Loc nD τ sig) → Buf (Elt Ideal) ℓ) (c : Dev nD) (t : Fin cfg0.N)
    (r : Fin 512) (l : Fin 4096) :
    (iblk m c 0 t : Vec Ideal S512x4096 .f32) (ix2 r l)
      = V m c main_v0 (ix2 ⟨512 * win0_4.index t (0 : Fin 2) + r.val, by
          have := (blockIndex_facts t).2.2.2.2.2.2.2.2.2; have := r.isLt; omega⟩ l) := by
  obtain ⟨e0, e1, -⟩ := blockIndex_facts t
  unfold iblk
  rw [View.read_apply]
  show V m c main_v0 _ = V m c main_v0 _
  congr 1
  funext a
  apply Fin.ext
  match a with
  | ⟨0, _⟩ => show win0_0.index t (0 : Fin 2) * 512 + 1 * r.val = 512 * win0_4.index t (0 : Fin 2) + r.val; omega
  | ⟨1, _⟩ => show win0_0.index t (1 : Fin 2) * 4096 + 1 * l.val = l.val; omega

/-- Every point's table block is the whole transposed table. -/
theorem tableBlock_eq (m : (ℓ : Loc nD τ sig) → Buf (Elt Ideal) ℓ) (c : Dev nD) (t : Fin cfg0.N) :
    (iblk m c 1 t : Vec Ideal S128x4096 .f32) = V m c main_v1 := by
  obtain ⟨-, -, -, e3, e4, -⟩ := blockIndex_facts t
  unfold iblk
  funext y
  rw [View.read_apply]
  show V m c main_v1 _ = V m c main_v1 _
  congr 1
  funext a
  apply Fin.ext
  match a with
  | ⟨0, _⟩ => show win0_1.index t (0 : Fin 2) * 128 + 1 * (y 0).val = (y 0).val; omega
  | ⟨1, _⟩ => show win0_1.index t (1 : Fin 2) * 4096 + 1 * (y 1).val = (y 1).val; omega

/-- Every point's scale block is the whole scale column. -/
theorem scaleBlock_eq (m : (ℓ : Loc nD τ sig) → Buf (Elt Ideal) ℓ) (c : Dev nD) (t : Fin cfg0.N) :
    (iblk m c 2 t : Vec Ideal S128x1 .f32) = V m c main_v2 := by
  obtain ⟨-, -, -, -, -, e5, e6, -⟩ := blockIndex_facts t
  unfold iblk
  funext y
  rw [View.read_apply]
  show V m c main_v2 _ = V m c main_v2 _
  congr 1
  funext a
  apply Fin.ext
  match a with
  | ⟨0, _⟩ => show win0_2.index t (0 : Fin 2) * 128 + 1 * (y 0).val = (y 0).val; omega
  | ⟨1, _⟩ => show win0_2.index t (1 : Fin 2) * 1 + 1 * (y 1).val = (y 1).val; omega

/-- Every point's shift block is the whole shift column. -/
theorem shiftBlock_eq (m : (ℓ : Loc nD τ sig) → Buf (Elt Ideal) ℓ) (c : Dev nD) (t : Fin cfg0.N) :
    (iblk m c 3 t : Vec Ideal S128x1 .f32) = V m c main_v3 := by
  obtain ⟨-, -, -, -, -, -, -, e7, e8, -⟩ := blockIndex_facts t
  unfold iblk
  funext y
  rw [View.read_apply]
  show V m c main_v3 _ = V m c main_v3 _
  congr 1
  funext a
  apply Fin.ext
  match a with
  | ⟨0, _⟩ => show win0_3.index t (0 : Fin 2) * 128 + 1 * (y 0).val = (y 0).val; omega
  | ⟨1, _⟩ => show win0_3.index t (1 : Fin 2) * 1 + 1 * (y 1).val = (y 1).val; omega

/-- Row r of point t's output block sits at row 512·(block index) + r of the output. -/
theorem outBlock_emb (t : Fin cfg0.N) (r : Fin 512) (l : Fin 4096) :
    ((cfg0.win 4).blk t).view.emb (ix2 r l)
      = ix2 ⟨512 * win0_4.index t (0 : Fin 2) + r.val, by
          have := (blockIndex_facts t).2.2.2.2.2.2.2.2.2; have := r.isLt; omega⟩ l := by
  obtain ⟨-, -, e2, -⟩ := blockIndex_facts t
  funext a
  apply Fin.ext
  match a with
  | ⟨0, _⟩ => show win0_4.index t (0 : Fin 2) * 512 + 1 * r.val = 512 * win0_4.index t (0 : Fin 2) + r.val; omega
  | ⟨1, _⟩ => show win0_4.index t (1 : Fin 2) * 4096 + 1 * l.val = l.val; omega

/-! ## What a grid point writes back -/

/-- Point t writes back block t of G4 of the arrays as the region finds them. -/
theorem writeBack_eq (m : (ℓ : Loc nD τ sig) → Buf (Elt Ideal) ℓ) (c : Dev nD) (t : Fin cfg0.N) :
    (dats m 0 c).flushed 4 t
      = ((cfg0.win 4).blk t).view.read (Elt Ideal) (G4 (V m c main_v0) (V m c main_v1) (V m c main_v2) (V m c main_v3)) := by
  show (cfg0.win 4).cut (grid0.coords t) ((dats m 0 c).after 4 t) = _
  rw [after0_4]
  unfold out0_4
  rw [View.canon_unit_zero origin_zero]
  simp only [View.ld_unit_zero (S := S512x4096) origin_zero, View.ld_unit_zero (S := S128x4096) origin_zero,
    View.ld_unit_zero (S := S128x1) origin_zero]
  funext j
  obtain ⟨r, l, rfl⟩ : ∃ (r : Fin 512) (l : Fin 4096), j = ix2 r l := ⟨j 0, j 1, eq_ix2 j⟩
  show k0_pay1 (F := Ideal) (iblk m c 0 t) (iblk m c 1 t) (iblk m c 2 t) (iblk m c 3 t) (ix2 r l)
    = G4 (V m c main_v0) (V m c main_v1) (V m c main_v2) (V m c main_v3) (((cfg0.win 4).blk t).view.emb (ix2 r l))
  rw [outBlock_emb]
  exact stored_eq_G4 _ _ _ _ (win0_4.index t (0 : Fin 2)) (blockIndex_facts t).2.2.2.2.2.2.2.2.2 _ _ _ _
    (actBlock_apply m c t) (tableBlock_eq m c t) (scaleBlock_eq m c t) (shiftBlock_eq m c t) r l

/-! ## The four blocks tile the output -/

/-- An index of the output is in point t's block iff each coordinate is in the block's range on its axis. -/
theorem mem_outBlock (t : Fin cfg0.N) (i : S2048x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v4).slice (win0_4.rect t)).set ↔ _
  rw [View.set_slice_whole, Rect.mem_set_unit]
  exact Iff.rfl

/-- Row r of the output is in the block of the point whose block index is r / 512. -/
theorem outBlocks_cover (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  obtain ⟨t, ht⟩ := blockIndex_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_outBlock]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- The output array after every write-back is `G4` of the arrays as the region finds them. -/
theorem final4 (m : (ℓ : Loc nD τ sig) → Buf (Elt Ideal) ℓ) (c : Dev nD) :
    (dats m 0 c).arrAt 4 cfg0.N = G4 (V m c main_v0) (V m c main_v1) (V m c main_v2) (V m c main_v3) :=
  (dats m 0 c).arrAt_eq_of_cover 4 _ (fun t _ => writeBack_eq m c t) outBlocks_cover

end Cert.KernelIdeal.HandValue

end
-- ==== Proof.KerValue.lean ====
/-
  The kernel program's result array after its run.

  The four grid points each write back one 512-row block of the flattened 2048 × 4096 output; the blocks tile it, and
  by the stored value read at an index each block is the restriction of one whole-array function.  The host
  operations around the region only re-lay arrays: the activations are flattened [16, 128, 4096] → [2048, 4096]
  before it (row `128·bi + k` is batch entry `bi`, feature `k`), the position table is transposed, the two feature
  vectors become columns, and the output is unflattened after it.  Read at [bi, d, l] the result is therefore the
  specification's value.
-/
import proofs.«158804_g21612275433595_cont_8to1_1535_8_alg».proof.Proof.Gen.KernelIdeal.Frame
import proofs.«158804_g21612275433595_cont_8to1_1535_8_alg».proof.Proof.KerBlocks
import proofs.«158804_g21612275433595_cont_8to1_1535_8_alg».proof.Proof.Spec
import Idealize.ShloMosaic.Lib.ValueLayout
import Idealize.ShloMosaic.Lib.Pipeline.Value
import Idealize.ShloMosaic.Lib.StableHlo.Run

noncomputable section

namespace Cert.KernelIdeal.HandValue

open Cert.KernelIdeal Cert.KernelIdeal.Gen Idealize.ShloMosaic Idealize.ShloMosaic.TcCoe Idealize.SL.Sem Idealize.ShloMosaic.ValueIdx Cert.LayerNorm

/-! ## The re-laid arrays read at an index -/

section Reads
variable {α : Type}

/-- The flattened activations: row `128·bi + k` of the 2048 × 4096 array is batch entry `bi`, feature `k`. -/
theorem flat_read (x : S16x128x4096.Idx → α) (h : S16x128x4096.ShapeCasts S2048x4096)
    (bi : Fin 16) (k : Fin 128) (l : Fin 4096) (r : Fin 2048) (hr : r.val = 128 * bi.val + k.val) :
    shapeCast S2048x4096 x h (ix2 r l) = x (ix3 bi k l) :=
  shapeCast_apply x h _ _ (by
    rw [Shape.rowMajor_val_three, Shape.rowMajor_val_two]
    show (bi.val * 128 + k.val) * 4096 + l.val = r.val * 4096 + l.val
    rw [hr]; omega)

/-- The unflattened output: entry `[bi, d, l]` is row `128·bi + d` of the 2048 × 4096 array. -/
theorem unflat_read (y : S2048x4096.Idx → α) (h : S2048x4096.ShapeCasts S16x128x4096)
    (bi : Fin 16) (d : Fin 128) (l : Fin 4096) (r : Fin 2048) (hr : r.val = 128 * bi.val + d.val) :
    shapeCast S16x128x4096 y h (ix3 bi d l) = y (ix2 r l) :=
  shapeCast_apply y h _ _ (by
    rw [Shape.rowMajor_val_three, Shape.rowMajor_val_two]
    show r.val * 4096 + l.val = (bi.val * 128 + d.val) * 4096 + l.val
    rw [hr]; omega)

/-- A feature vector as a column: entry `[d, 0]` is entry `d`. -/
theorem col_read (g : S128.Idx → α) (h : S128.ShapeCasts S128x1) (d : Fin 128) :
    shapeCast S128x1 g h (ix2 d (0 : Fin 1)) = g (ix1 d) :=
  shapeCast_apply g h _ _ (by
    rw [Shape.rowMajor_val_one, Shape.rowMajor_val_two]
    show d.val = d.val * 1 + 0
    omega)

end Reads

/-! ## The whole-array function of the re-laid arguments is the specification -/

/-- Read at `[bi, d, l]`, the unflattened whole-array function of the re-laid arguments is the specification:
    row `128·bi + d` is feature `d` of the group of rows `128·bi … 128·bi + 127`, and those rows are batch entry
    `bi`; the transposed table at `[k, l]` is the table at `[l, k]`; a column at `[d, 0]` is the vector at `d`. -/
theorem relaid_eq (x : FVec Ideal SX .f32) (pe : FVec Ideal SP .f32) (g b : FVec Ideal SV .f32) :
    shapeCast S16x128x4096
        (G4 (shapeCast S2048x4096 x shapeCasts_S16x128x4096_S2048x4096)
            (transpose S128x4096 [1, 0] pe transposes_S4096x128_S128x4096_1_0)
            (shapeCast S128x1 g shapeCasts_S128_S128x1) (shapeCast S128x1 b shapeCasts_S128_S128x1))
        shapeCasts_S2048x4096_S16x128x4096
      = G x pe g b := by
  funext i
  obtain ⟨bi, d, l, rfl⟩ : ∃ (bi : Fin 16) (d : Fin 128) (l : Fin 4096), i = ix3 bi d l := ⟨i 0, i 1, i 2, eq_ix3 i⟩
  have hr : 128 * bi.val + d.val < 2048 := by have := bi.isLt; have := d.isLt; omega
  have hf : featOf ⟨128 * bi.val + d.val, hr⟩ = d :=
    Fin.ext (by show (128 * bi.val + d.val) % 128 = d.val; have := d.isLt; omega)
  rw [G_apply, unflat_read _ _ bi d l ⟨128 * bi.val + d.val, hr⟩ rfl, G4_apply, hf, col_read, col_read]
  refine congrArg (fun u => kerRow u d (g (ix1 d)) (b (ix1 d))) (funext fun k => ?_)
  rw [flat_read x _ bi k l (rowOf ⟨128 * bi.val + d.val, hr⟩ k)
      (by show 128 * ((128 * bi.val + d.val) / 128) + k.val = 128 * bi.val + k.val; have := d.isLt; omega),
    transpose_ix2_apply]

/-! ## The arrays the region finds, as the host operations' terms of the launch arrays -/

/-- The region finds the activations flattened. -/
theorem entry0 (m : (ℓ : Loc nD τ sig) → Buf (Elt Ideal) ℓ) (c : Dev nD) :
    (V m c main_v0 : S2048x4096.Idx → EReal)
      = shapeCast S2048x4096 (m ((c.tc : Thread nD τ).loc main_arg0)) shapeCasts_S16x128x4096_S2048x4096 := by
  show StableHlo.after hostOps0 (fun b => m (c, b)) (Proc.devRef .tc main_v0) = _
  after_results
  rfl

/-- The position table transposed. -/
theorem entry1 (m : (ℓ : Loc nD τ sig) → Buf (Elt Ideal) ℓ) (c : Dev nD) :
    (V m c main_v1 : S128x4096.Idx → EReal)
      = transpose S128x4096 [1, 0] (m ((c.tc : Thread nD τ).loc main_arg1)) transposes_S4096x128_S128x4096_1_0 := by
  show StableHlo.after hostOps0 (fun b => m (c, b)) (Proc.devRef .tc main_v1) = _
  after_results

/-- The scale vector as a column. -/
theorem entry2 (m : (ℓ : Loc nD τ sig) → Buf (Elt Ideal) ℓ) (c : Dev nD) :
    (V m c main_v2 : S128x1.Idx → EReal)
      = shapeCast S128x1 (m ((c.tc : Thread nD τ).loc main_arg2)) shapeCasts_S128_S128x1 := by
  show StableHlo.after hostOps0 (fun b => m (c, b)) (Proc.devRef .tc main_v2) = _
  after_results
  rfl

/-- The shift vector as a column. -/
theorem entry3 (m : (ℓ : Loc nD τ sig) → Buf (Elt Ideal) ℓ) (c : Dev nD) :
    (V m c main_v3 : S128x1.Idx → EReal)
      = shapeCast S128x1 (m ((c.tc : Thread nD τ).loc main_arg3)) shapeCasts_S128_S128x1 := by
  show StableHlo.after hostOps0 (fun b => m (c, b)) (Proc.devRef .tc main_v3) = _
  after_results
  rfl

/-! ## The result array -/

/-- The result array after the host operation that follows the region: the unflattening of the pipeline's output,
    which holds the whole-array function of the arrays the region found. -/
theorem tail_eq (m : (ℓ : Loc nD τ sig) → Buf (Elt Ideal) ℓ) (c : Dev nD) :
    (Pipeline.afterTail₀ cfgs (dats m) 0 (V0 m) [hostOps1] c main_v5 : S16x128x4096.Idx → EReal)
      = shapeCast S16x128x4096 (G4 (V m c main_v0) (V m c main_v1) (V m c main_v2) (V m c main_v3))
          shapeCasts_S2048x4096_S16x128x4096 := by
  unfold Pipeline.afterTail₀
  show StableHlo.after hostOps1 _ (Proc.devRef .tc main_v5) = _
  after_results
  have e : (Pipeline.withArrays (cfgs 0).spec c (V0 m c) (fun w => (dats m 0 c).arrAt w (cfgs 0).N)
      (Proc.devRef .tc main_v4) : S2048x4096.Idx → EReal)
        = G4 (V m c main_v0) (V m c main_v1) (V m c main_v2) (V m c main_v3) :=
    (Pipeline.withArrays_arr spec0 launch0.win.arr_inj c _ _ 4).trans (final4 m c)
  exact congrArg (fun A : S2048x4096.Idx → EReal => shapeCast S16x128x4096 A shapeCasts_S2048x4096_S16x128x4096) e

/-- The result array is the specification of the four launch arrays. -/
theorem result_eq (m : (ℓ : Loc nD τ sig) → Buf (Elt Ideal) ℓ) (c : Dev nD) :
    (Pipeline.afterTail₀ cfgs (dats m) 0 (V0 m) [hostOps1] c main_v5 : S16x128x4096.Idx → EReal)
      = G (m ((c.tc : Thread nD τ).loc main_arg0)) (m ((c.tc : Thread nD τ).loc main_arg1))
          (m ((c.tc : Thread nD τ).loc main_arg2)) (m ((c.tc : Thread nD τ).loc main_arg3)) := by
  rw [tail_eq, entry0, entry1, entry2, entry3]
  exact relaid_eq _ _ _ _

/-- Every weakly fair execution of the idealized kernel program terminates with its result array at the
    specification of the argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HandValue

end
-- ==== Proof.RefTerm.lean ====
/-
  The reference's result as ONE term of its four arguments: its operations composed in program order, the three
  outlined functions (the row lookup, the variance, the guard's select) written at their call sites.

  `takeRows` is the lookup `pos_emb[arange(4096)]`: the index vector, its normalisation (a negative index counts
  from the end), the in-range mask, the gather of whole rows, and the select that puts the not-a-number word where
  the mask is clear.  `varRows` is the variance over the feature axis with zero degrees of freedom: the mean, the
  squared deviations, their sum divided by (128 − 0), guarded by a select on (128 − 0 > 0).  `refTerm` adds the
  looked-up rows to the transposed activations, normalises each row by its mean and by the square root of its
  variance plus ε, scales and shifts by the two feature vectors, and transposes back.
-/
import proofs.«158804_g21612275433595_cont_8to1_1535_8_alg».proof.Proof.Gen.ReferenceIdeal

noncomputable section

namespace Cert.ReferenceIdeal.Term

open Cert.ReferenceIdeal Cert.ReferenceIdeal.Gen Idealize.ShloMosaic

variable {F : FTy → Type} [FloatOps F]

/-- The rows of the position table looked up at 0, 1, …, 4095. -/
def takeRows (pe : FVec F S4096x128 .f32) : FVec F S4096x128 .f32 :=
  let idx : IVec S4096 32 := iotaInDim S4096 32 0
  let c : IVec S_ 32 := constantI S_ 32 0#32
  let v0 : IVec S4096 32 := broadcastInDim S4096 ![] bcast_S_S4096 c
  let v1 : IVec S4096 1 := cmpi .slt idx v0
  let c_0 : IVec S_ 32 := constantI S_ 32 4096#32
  let v2 : IVec S4096 32 := broadcastInDim S4096 ![] bcast_S_S4096 c_0
  let v3 : IVec S4096 32 := addi idx v2
  let v4 : IVec S4096 32 := select v1 v3 idx
  let v5 : IVec S4096x1 32 := broadcastInDim S4096x1 ![0] bcast_S4096_S4096x1_0 v4
  let c_1 : IVec S1 32 := constantI S1 32 4095#32
  let c_2 : IVec S_ 32 := constantI S_ 32 0#32
  let v6 : IVec S4096x1 32 := broadcastInDim S4096x1 ![] bcast_S_S4096x1 c_2
  let v7 : IVec S4096x1 1 := cmpi .sge v5 v6
  let v8 : IVec S1x1 32 := broadcastInDim S1x1 ![1] bcast_S1_S1x1_1 c_1
  let v9 : IVec S4096x1 32 := broadcastInDim S4096x1 ![0, 1] bcast_S1x1_S4096x1_0_1 v8
  let v10 : IVec S4096x1 1 := cmpi .sle v5 v9
  let v11 : IVec S4096x1 1 := andi v7 v10
  let c_3 : IVec S_ 1 := constantI S_ 1 1#1
  let v12 : IVec S4096 1 := Host.reduce IntOp.andi v11 c_3 reducesTo_S4096x1_S4096_d1 h_S_
  let v13 : FVec F S4096x128 .f32 := Host.gather gather_S4096x128_S4096x1_S4096x128_1_0_n_n_0_1_1128 pe v5
  let v14 : IVec S4096x128 1 := broadcastInDim S4096x128 ![0] bcast_S4096_S4096x128_0 v12
  let cst : FVec F S_ .f32 := constant S_ .f32 0x7FC00000#32
  let v15 : FVec F S4096x128 .f32 := broadcastInDim S4096x128 ![] bcast_S_S4096x128 cst
  select v14 v13 v15

/-- The variance of each row over the feature axis, kept as a unit axis. -/
def varRows (h : FVec F S16x4096x128 .f32) : FVec F S16x4096x1 .f32 :=
  let c : IVec S_ 32 := constantI S_ 32 0#32
  let cst : FVec F S_ .f32 := constant S_ .f32 0x00000000#32
  let v0 : FVec F S16x4096 .f32 := Host.reduceAdd h cst reducesTo_S16x4096x128_S16x4096_d2 h_S_
  let v1 : FVec F S16x4096x1 .f32 := broadcastInDim S16x4096x1 ![0, 1] bcast_S16x4096_S16x4096x1_0_1 v0
  let cst_0 : FVec F S_ .f32 := constant S_ .f32 0x43000000#32
  let v2 : FVec F S16x4096x1 .f32 := broadcastInDim S16x4096x1 ![] bcast_S_S16x4096x1 cst_0
  let v3 : FVec F S16x4096x1 .f32 := Host.divf v1 v2
  let v4 : FVec F S16x4096x128 .f32 := broadcastInDim S16x4096x128 ![0, 1, 2] bcast_S16x4096x1_S16x4096x128_0_1_2 v3
  let v5 : FVec F S16x4096x128 .f32 := subf h v4
  let v6 : FVec F S16x4096x128 .f32 := mulf v5 v5
  let v7 : FVec F S_ .f32 := sitofp .f32 c
  let cst_1 : FVec F S_ .f32 := constant S_ .f32 0x43000000#32
  let v8 : FVec F S_ .f32 := subf cst_1 v7
  let cst_2 : FVec F S_ .f32 := constant S_ .f32 0x00000000#32
  let v9 : FVec F S16x4096 .f32 := Host.reduceAdd v6 cst_2 reducesTo_S16x4096x128_S16x4096_d2 h_S_
  let v10 : FVec F S16x4096x1 .f32 := broadcastInDim S16x4096x1 ![0, 1] bcast_S16x4096_S16x4096x1_0_1 v9
  let v11 : FVec F S16x4096x1 .f32 := broadcastInDim S16x4096x1 ![] bcast_S_S16x4096x1 v8
  let v12 : FVec F S16x4096x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let w0 : FVec F S_ .f32 := id cst_4
  let w1 : FVec F S16x4096x1 .f32 := broadcastInDim S16x4096x1 ![] bcast_S_S16x4096x1 w0
  select (broadcastInDim S16x4096x1 ![] bcast_S_S16x4096x1 v13) v12 w1

/-- The reference's result array of the four argument arrays. -/
def refTerm (x : FVec F S16x128x4096 .f32) (pe : FVec F S4096x128 .f32) (gm bt : FVec F S128 .f32) :
    FVec F S16x128x4096 .f32 :=
  let v1 : FVec F S16x4096x128 .f32 := transpose S16x4096x128 [0, 2, 1] x transposes_S16x128x4096_S16x4096x128_0_2_1
  let v2 : FVec F S4096x128 .f32 := takeRows pe
  let v3 : FVec F S1x4096x128 .f32 := broadcastInDim S1x4096x128 ![1, 2] bcast_S4096x128_S1x4096x128_1_2 v2
  let v4 : FVec F S16x4096x128 .f32 := broadcastInDim S16x4096x128 ![0, 1, 2] bcast_S1x4096x128_S16x4096x128_0_1_2 v3
  let v5 : FVec F S16x4096x128 .f32 := addf v1 v4
  let cst : FVec F S_ .f32 := constant S_ .f32 0x00000000#32
  let v6 : FVec F S16x4096 .f32 := Host.reduceAdd v5 cst reducesTo_S16x4096x128_S16x4096_d2 h_S_
  let v7 : FVec F S16x4096x1 .f32 := broadcastInDim S16x4096x1 ![0, 1] bcast_S16x4096_S16x4096x1_0_1 v6
  let cst_0 : FVec F S_ .f32 := constant S_ .f32 0x43000000#32
  let v8 : FVec F S16x4096x1 .f32 := broadcastInDim S16x4096x1 ![] bcast_S_S16x4096x1 cst_0
  let v9 : FVec F S16x4096x1 .f32 := Host.divf v7 v8
  let v10 : FVec F S16x4096x1 .f32 := varRows v5
  let v11 : FVec F S16x4096x128 .f32 := broadcastInDim S16x4096x128 ![0, 1, 2] bcast_S16x4096x1_S16x4096x128_0_1_2 v9
  let v12 : FVec F S16x4096x128 .f32 := subf v5 v11
  let cst_1 : FVec F S_ .f32 := constant S_ .f32 0x3727C5AC#32
  let v13 : FVec F S16x4096x1 .f32 := broadcastInDim S16x4096x1 ![] bcast_S_S16x4096x1 cst_1
  let v14 : FVec F S16x4096x1 .f32 := addf v10 v13
  let v15 : FVec F S16x4096x1 .f32 := Host.sqrt v14
  let v16 : FVec F S16x4096x128 .f32 := broadcastInDim S16x4096x128 ![0, 1, 2] bcast_S16x4096x1_S16x4096x128_0_1_2 v15
  let v17 : FVec F S16x4096x128 .f32 := Host.divf v12 v16
  let v18 : FVec F S1x1x128 .f32 := broadcastInDim S1x1x128 ![2] bcast_S128_S1x1x128_2 gm
  let v19 : FVec F S16x4096x128 .f32 := broadcastInDim S16x4096x128 ![0, 1, 2] bcast_S1x1x128_S16x4096x128_0_1_2 v18
  let v20 : FVec F S16x4096x128 .f32 := mulf v17 v19
  let v21 : FVec F S1x1x128 .f32 := broadcastInDim S1x1x128 ![2] bcast_S128_S1x1x128_2 bt
  let v22 : FVec F S16x4096x128 .f32 := broadcastInDim S16x4096x128 ![0, 1, 2] bcast_S1x1x128_S16x4096x128_0_1_2 v21
  let v23 : FVec F S16x4096x128 .f32 := addf v20 v22
  transpose S16x128x4096 [0, 2, 1] v23 transposes_S16x4096x128_S16x128x4096_0_2_1

end Cert.ReferenceIdeal.Term

end
-- ==== Proof.RefRun.lean ====
/-
  The reference program's run, read back.

  The reference has no kernel: its program is a straight line of host operations, three of them calls of outlined
  functions (the row lookup, which itself calls the index normalisation's select; the variance, which calls the
  guard's select) whose bodies run in place on the call's own buffers.  Listed in order with the calls unfolded, the
  program is one sequence of operations, and running a sequence leaves in each buffer the composition of the
  operations that wrote it: the result buffer holds `refTerm` of the four arguments, which no operation writes.
-/
import proofs.«158804_g21612275433595_cont_8to1_1535_8_alg».proof.Proof.Gen.ReferenceIdeal
import proofs.«158804_g21612275433595_cont_8to1_1535_8_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 73 operations in order, each call's body written at its call site over that call's own buffers:
    the index vector and the transposed activations; the row lookup's twenty-three (the index normalisation's
    select among them); the sum of activations and looked-up rows and its mean; the variance's twenty-three (the
    guard's convert, broadcast and select last); the normalisation, scale, shift and the transpose back. -/
abbrev ops : List (HloOp τ sig (Elt F)) :=
  [ nullary main_v0 (iotaInDim S4096 32 0),
    unary main_arg0 main_v1 ((transpose S16x4096x128 [0, 2, 1] · transposes_S16x128x4096_S16x4096x128_0_2_1) : (⟨S16x128x4096, .f32⟩ : BufTy).Contents (Elt F) → (⟨S16x4096x128, .f32⟩ : BufTy).Contents (Elt F)),
    TRef.nullary main_call0.c (constantI S_ 32 0#32),
    TRef.unary main_call0.c main_call0.v0 (broadcastInDim S4096 ![] bcast_S_S4096),
    TRef.binary (.of main_v0) main_call0.v0 main_call0.v1 (cmpi .slt),
    TRef.nullary main_call0.c_0 (constantI S_ 32 4096#32),
    TRef.unary main_call0.c_0 main_call0.v2 (broadcastInDim S4096 ![] bcast_S_S4096),
    TRef.binary (.of main_v0) main_call0.v2 main_call0.v3 addi,
    TRef.ternary main_call0.v1 main_call0.v3 (.of main_v0) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S4096x128_S4096x1_S4096x128_1_0_n_n_0_1_1128 x i),
    TRef.unary main_call0.v12 main_call0.v14 (broadcastInDim S4096x128 ![0] bcast_S4096_S4096x128_0),
    TRef.nullary main_call0.cst (constant S_ .f32 0x7FC00000#32),
    TRef.unary main_call0.cst main_call0.v15 (broadcastInDim S4096x128 ![] bcast_S_S4096x128),
    TRef.ternary main_call0.v14 main_call0.v13 main_call0.v15 main_call0.v16 select,
    unary main_v2 main_v3 (broadcastInDim S1x4096x128 ![1, 2] bcast_S4096x128_S1x4096x128_1_2 : (⟨S4096x128, .f32⟩ : BufTy).Contents (Elt F) → (⟨S1x4096x128, .f32⟩ : BufTy).Contents (Elt F)),
    unary main_v3 main_v4 (broadcastInDim S16x4096x128 ![0, 1, 2] bcast_S1x4096x128_S16x4096x128_0_1_2 : (⟨S1x4096x128, .f32⟩ : BufTy).Contents (Elt F) → (⟨S16x4096x128, .f32⟩ : BufTy).Contents (Elt F)),
    binary main_v1 main_v4 main_v5 (addf : (⟨S16x4096x128, .f32⟩ : BufTy).Contents (Elt F) → (⟨S16x4096x128, .f32⟩ : BufTy).Contents (Elt F) → (⟨S16x4096x128, .f32⟩ : BufTy).Contents (Elt F)),
    nullary main_cst (constant S_ .f32 0x00000000#32),
    binary main_v5 main_cst main_v6 ((fun x v => Host.reduceAdd x v reducesTo_S16x4096x128_S16x4096_d2 h_S_) : (⟨S16x4096x128, .f32⟩ : BufTy).Contents (Elt F) → (⟨S_, .f32⟩ : BufTy).Contents (Elt F) → (⟨S16x4096, .f32⟩ : BufTy).Contents (Elt F)),
    unary main_v6 main_v7 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_0 (constant S_ .f32 0x43000000#32),
    unary main_cst_0 main_v8 (broadcastInDim S16x4096x1 ![] bcast_S_S16x4096x1 : (⟨S_, .f32⟩ : BufTy).Contents (Elt F) → (⟨S16x4096x1, .f32⟩ : BufTy).Contents (Elt F)),
    binary main_v7 main_v8 main_v9 (Host.divf : (⟨S16x4096x1, .f32⟩ : BufTy).Contents (Elt F) → (⟨S16x4096x1, .f32⟩ : BufTy).Contents (Elt F) → (⟨S16x4096x1, .f32⟩ : BufTy).Contents (Elt F)),
    nullary main_c (constantI S_ 32 0#32),
    TRef.nullary main_call1.cst (constant S_ .f32 0x00000000#32),
    TRef.binary (.of main_v5) main_call1.cst main_call1.v0 (fun x v => Host.reduceAdd x v reducesTo_S16x4096x128_S16x4096_d2 h_S_),
    TRef.unary main_call1.v0 main_call1.v1 (broadcastInDim S16x4096x1 ![0, 1] bcast_S16x4096_S16x4096x1_0_1),
    TRef.nullary main_call1.cst_0 (constant S_ .f32 0x43000000#32),
    TRef.unary main_call1.cst_0 main_call1.v2 (broadcastInDim S16x4096x1 ![] bcast_S_S16x4096x1),
    TRef.binary main_call1.v1 main_call1.v2 main_call1.v3 Host.divf,
    TRef.unary main_call1.v3 main_call1.v4 (broadcastInDim S16x4096x128 ![0, 1, 2] bcast_S16x4096x1_S16x4096x128_0_1_2),
    TRef.binary (.of main_v5) main_call1.v4 main_call1.v5 subf,
    TRef.binary main_call1.v5 main_call1.v5 main_call1.v6 mulf,
    TRef.unary (.of main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16x4096x128_S16x4096_d2 h_S_),
    TRef.unary main_call1.v9 main_call1.v10 (broadcastInDim S16x4096x1 ![0, 1] bcast_S16x4096_S16x4096x1_0_1),
    TRef.unary main_call1.v8 main_call1.v11 (broadcastInDim S16x4096x1 ![] bcast_S_S16x4096x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16x4096x1 ![] bcast_S_S16x4096x1),
    TRef.ternary main_call1.v13 main_call1.v12 main_call1.call0.v1 main_call1.call0.v2 (fun p a b => select (broadcastInDim S16x4096x1 ![] bcast_S_S16x4096x1 p) a b),
    unary main_v9 main_v11 (broadcastInDim S16x4096x128 ![0, 1, 2] bcast_S16x4096x1_S16x4096x128_0_1_2 : (⟨S16x4096x1, .f32⟩ : BufTy).Contents (Elt F) → (⟨S16x4096x128, .f32⟩ : BufTy).Contents (Elt F)),
    binary main_v5 main_v11 main_v12 (subf : (⟨S16x4096x128, .f32⟩ : BufTy).Contents (Elt F) → (⟨S16x4096x128, .f32⟩ : BufTy).Contents (Elt F) → (⟨S16x4096x128, .f32⟩ : BufTy).Contents (Elt F)),
    nullary main_cst_1 (constant S_ .f32 0x3727C5AC#32),
    unary main_cst_1 main_v13 (broadcastInDim S16x4096x1 ![] bcast_S_S16x4096x1 : (⟨S_, .f32⟩ : BufTy).Contents (Elt F) → (⟨S16x4096x1, .f32⟩ : BufTy).Contents (Elt F)),
    binary main_v10 main_v13 main_v14 (addf : (⟨S16x4096x1, .f32⟩ : BufTy).Contents (Elt F) → (⟨S16x4096x1, .f32⟩ : BufTy).Contents (Elt F) → (⟨S16x4096x1, .f32⟩ : BufTy).Contents (Elt F)),
    unary main_v14 main_v15 (Host.sqrt : (⟨S16x4096x1, .f32⟩ : BufTy).Contents (Elt F) → (⟨S16x4096x1, .f32⟩ : BufTy).Contents (Elt F)),
    unary main_v15 main_v16 (broadcastInDim S16x4096x128 ![0, 1, 2] bcast_S16x4096x1_S16x4096x128_0_1_2 : (⟨S16x4096x1, .f32⟩ : BufTy).Contents (Elt F) → (⟨S16x4096x128, .f32⟩ : BufTy).Contents (Elt F)),
    binary main_v12 main_v16 main_v17 (Host.divf : (⟨S16x4096x128, .f32⟩ : BufTy).Contents (Elt F) → (⟨S16x4096x128, .f32⟩ : BufTy).Contents (Elt F) → (⟨S16x4096x128, .f32⟩ : BufTy).Contents (Elt F)),
    unary main_arg2 main_v18 (broadcastInDim S1x1x128 ![2] bcast_S128_S1x1x128_2 : (⟨S128, .f32⟩ : BufTy).Contents (Elt F) → (⟨S1x1x128, .f32⟩ : BufTy).Contents (Elt F)),
    unary main_v18 main_v19 (broadcastInDim S16x4096x128 ![0, 1, 2] bcast_S1x1x128_S16x4096x128_0_1_2 : (⟨S1x1x128, .f32⟩ : BufTy).Contents (Elt F) → (⟨S16x4096x128, .f32⟩ : BufTy).Contents (Elt F)),
    binary main_v17 main_v19 main_v20 (mulf : (⟨S16x4096x128, .f32⟩ : BufTy).Contents (Elt F) → (⟨S16x4096x128, .f32⟩ : BufTy).Contents (Elt F) → (⟨S16x4096x128, .f32⟩ : BufTy).Contents (Elt F)),
    unary main_arg3 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S16x4096x128 ![0, 1, 2] bcast_S1x1x128_S16x4096x128_0_1_2 : (⟨S1x1x128, .f32⟩ : BufTy).Contents (Elt F) → (⟨S16x4096x128, .f32⟩ : BufTy).Contents (Elt F)),
    binary main_v20 main_v22 main_v23 (addf : (⟨S16x4096x128, .f32⟩ : BufTy).Contents (Elt F) → (⟨S16x4096x128, .f32⟩ : BufTy).Contents (Elt F) → (⟨S16x4096x128, .f32⟩ : BufTy).Contents (Elt F)),
    unary main_v23 main_v24 ((transpose S16x128x4096 [0, 2, 1] · transposes_S16x4096x128_S16x128x4096_0_2_1) : (⟨S16x4096x128, .f32⟩ : BufTy).Contents (Elt F) → (⟨S16x128x4096, .f32⟩ : BufTy).Contents (Elt F)) ]

-- the program's chain of binds is as deep as it has operations: comparing it with the list's needs that depth
set_option maxRecDepth 4096 in
/-- The program is that straight line: a call is its body applied, and sequencing grafts what follows onto the
    body's last step, so both sides are the same chain of operations by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the tensor program only. -/
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    unary_bufs_sub ..⟩

attribute [local irreducible] Host.reduce Host.reduceAdd Host.gather in
set_option maxRecDepth 8192 in
/-- What the result buffer holds after the sequence, from any contents `V`: each operation's result at its own
    buffer is its function of its operands' contents and every other buffer keeps what it held, so reading back
    from the last transpose composes the operations in program order; a call's typed buffers carry their values
    along an equation of types that is the identity (a transport there and back cancels, a transport along
    reflexivity is nothing), and what remains is `refTerm` with its three definitions unfolded, the reductions and
    the gather kept folded since the comparison never looks inside them. -/
theorem out_eq (V : Valuation τ sig (Elt F)) :
    after ops V (main_v24 : DevRef τ sig)
      = Term.refTerm (V (main_arg0 : DevRef τ sig)) (V (main_arg1 : DevRef τ sig)) (V (main_arg2 : DevRef τ sig))
          (V (main_arg3 : DevRef τ sig)) := by
  after_results_simp
  simp only [cast_cast, cast_eq]
  rfl

/-- No operation writes an argument buffer. -/
theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp

/-- Every weakly fair execution of the reference terminates with its result array at `refTerm` of the argument
    arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = Term.refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.HandRun

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefValue.lean ====
/-
  The reference's term is the specification, on real inputs.

  Read at [bi, d, l] the reference's term is its spelling of the layer normalisation of the row
  `k ↦ x[bi, k, l] + pos_emb[l, k]` at feature `d`: the two transposes exchange the last two coordinates, the lookup
  at 0, 1, …, 4095 returns the position table itself (every index is in range, so the mask is set everywhere and
  the not-a-number arm is never taken), each sum over the feature axis is the sum over `k`, and each broadcast
  repeats a row's statistic along the features or a feature's scale along the rows.  When the activations and the
  table are real the rows are real, and the row law turns the reference's spelling into the kernel's.
-/
import proofs.«158804_g21612275433595_cont_8to1_1535_8_alg».proof.Proof.RefTerm
import proofs.«158804_g21612275433595_cont_8to1_1535_8_alg».proof.Proof.Spec
import proofs.«158804_g21612275433595_cont_8to1_1535_8_alg».proof.Proof.LibRowGatherScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.LayerNorm

/-! ## Broadcasts of the literal shapes, read at an index -/

section Layouts
variable {α : Type}

/-- A [16, 4096] array with a unit axis appended, at (bi, l, 0): the array at (bi, l). -/
theorem bcastUnit_apply (h : S16x4096.BroadcastsInDim S16x4096x1 ![0, 1]) (v : S16x4096.Idx → α)
    (bi : Fin 16) (l : Fin 4096) (z : Fin 1) :
    broadcastInDim S16x4096x1 ![0, 1] h v (ix3 bi l z) = v (ix2 bi l) := by
  refine broadcastInDim_apply _ h v _ (ix2 bi l) fun a => ?_
  match a with
  | ⟨0, _⟩ => rfl
  | ⟨1, _⟩ => rfl

/-- A row statistic [16, 4096, 1] repeated along the 128 features, at (bi, l, k): the statistic at (bi, l, 0). -/
theorem bcastFeat3_apply (h : S16x4096x1.BroadcastsInDim S16x4096x128 ![0, 1, 2]) (v : S16x4096x1.Idx → α)
    (bi : Fin 16) (l : Fin 4096) (k : Fin 128) :
    broadcastInDim S16x4096x128 ![0, 1, 2] h v (ix3 bi l k) = v (ix3 bi l 0) := by
  refine broadcastInDim_apply _ h v _ (ix3 bi l 0) fun a => ?_
  match a with
  | ⟨0, _⟩ => rfl
  | ⟨1, _⟩ => rfl
  | ⟨2, _⟩ => rfl

/-- A [4096, 128] table with a leading unit axis, at (0, l, k): the table at (l, k). -/
theorem bcastLead_apply (h : S4096x128.BroadcastsInDim S1x4096x128 ![1, 2]) (v : S4096x128.Idx → α)
    (z : Fin 1) (l : Fin 4096) (k : Fin 128) :
    broadcastInDim S1x4096x128 ![1, 2] h v (ix3 z l k) = v (ix2 l k) := by
  refine broadcastInDim_apply _ h v _ (ix2 l k) fun a => ?_
  match a with
  | ⟨0, _⟩ => rfl
  | ⟨1, _⟩ => rfl

/-- A [1, 4096, 128] table repeated over the 16 batch entries, at (bi, l, k): the table at (0, l, k). -/
theorem bcastBatch_apply (h : S1x4096x128.BroadcastsInDim S16x4096x128 ![0, 1, 2]) (v : S1x4096x128.Idx → α)
    (bi : Fin 16) (l : Fin 4096) (k : Fin 128) :
    broadcastInDim S16x4096x128 ![0, 1, 2] h v (ix3 bi l k) = v (ix3 0 l k) := by
  refine broadcastInDim_apply _ h v _ (ix3 0 l k) fun a => ?_
  match a with
  | ⟨0, _⟩ => rfl
  | ⟨1, _⟩ => rfl
  | ⟨2, _⟩ => rfl

/-- A feature vector [128] with two leading unit axes, at (0, 0, k): the vector at k. -/
theorem bcastVec3_apply (h : S128.BroadcastsInDim S1x1x128 ![2]) (v : S128.Idx → α)
    (z z' : Fin 1) (k : Fin 128) :
    broadcastInDim S1x1x128 ![2] h v (ix3 z z' k) = v (ix1 k) := by
  refine broadcastInDim_apply _ h v _ (ix1 k) fun a => ?_
  match a with
  | ⟨0, _⟩ => rfl

/-- A [1, 1, 128] feature vector repeated over batch entries and positions, at (bi, l, k): the vector at (0, 0, k). -/
theorem bcastRows3_apply (h : S1x1x128.BroadcastsInDim S16x4096x128 ![0, 1, 2]) (v : S1x1x128.Idx → α)
    (bi : Fin 16) (l : Fin 4096) (k : Fin 128) :
    broadcastInDim S16x4096x128 ![0, 1, 2] h v (ix3 bi l k) = v (ix3 0 0 k) := by
  refine broadcastInDim_apply _ h v _ (ix3 0 0 k) fun a => ?_
  match a with
  | ⟨0, _⟩ => rfl
  | ⟨1, _⟩ => rfl
  | ⟨2, _⟩ => rfl

/-- A vector [4096] repeated along the 128 features, at (l, k): the vector at l. -/
theorem bcastOfRow_apply (h : S4096.BroadcastsInDim S4096x128 ![0]) (v : S4096.Idx → α)
    (l : Fin 4096) (k : Fin 128) :
    broadcastInDim S4096x128 ![0] h v (ix2 l k) = v (ix1 l) := by
  refine broadcastInDim_apply _ h v _ (ix1 l) fun a => ?_
  match a with
  | ⟨0, _⟩ => rfl

end Layouts

/-! ## A sum over the feature axis -/

/-- The host's sum over the last axis of a [16, 4096, 128] array, at (bi, l): the initial value plus the sum over the
    128 features of the array at (bi, l, k). -/
theorem rowSum_apply (h : FVec Ideal S16x4096x128 .f32) (init : S_.Idx → Ideal .f32)
    (hr : S16x4096x128.ReducesTo [2] S16x4096) (hu : 0 < S_.numel) (bi : Fin 16) (l : Fin 4096) :
    Host.reduceAdd (F := Ideal) h init hr hu (ix2 bi l) = init ix0 + ∑ k : Fin 128, h (ix3 bi l k) := by
  have hR : S16x4096x128.Reduces [2] S16x4096 := ⟨hr.1, Nat.two_pos, hr.2⟩
  show Ideal.hostReduceAdd hr h (init (Shape.Idx.first hu)) (ix2 bi l) = _
  rw [Ideal.hostReduceAdd_single hr hR, eq_ix0 (Shape.Idx.first hu)]
  refine congrArg (init ix0 + ·) (Finset.sum_congr rfl fun k _ => congrArg h (funext fun a => Fin.ext ?_))
  match a with
  | ⟨0, _⟩ => rfl
  | ⟨1, _⟩ => rfl
  | ⟨2, _⟩ => rfl

/-! ## The lookup of the position table at 0, 1, …, 4095 -/

/-- The start word of position l: the word of l itself, which is not negative, so the normalisation keeps it. -/
theorem startWord_apply (l : Fin 4096) (z : Fin 1) :
    broadcastInDim S4096x1 ![0] bcast_S4096_S4096x1_0
        (select (cmpi .slt (iotaInDim S4096 32 0) (broadcastInDim S4096 ![] bcast_S_S4096 (constantI S_ 32 0#32)))
          (addi (iotaInDim S4096 32 0) (broadcastInDim S4096 ![] bcast_S_S4096 (constantI S_ 32 4096#32)))
          (iotaInDim S4096 32 0)) (ix2 l z) = BitVec.ofNat 32 l.val := by
  rw [Hand.bcastCol_apply, select_apply]
  show Scalar.select
      (IntOp.cmpi .slt (BitVec.ofNat 32 l.val) (broadcastInDim S4096 ![] bcast_S_S4096 (constantI S_ 32 0#32) (ix1 l)))
      (IntOp.addi (BitVec.ofNat 32 l.val) (broadcastInDim S4096 ![] bcast_S_S4096 (constantI S_ 32 4096#32) (ix1 l)))
      (BitVec.ofNat 32 l.val) = _
  rw [Hand.bcastScalar_apply, Hand.bcastScalar_apply]
  show Scalar.select (IntOp.cmpi .slt (BitVec.ofNat 32 l.val) 0#32) (IntOp.addi (BitVec.ofNat 32 l.val) 4096#32)
      (BitVec.ofNat 32 l.val) = _
  rw [Hand.wrap_select, if_neg]
  rw [StableHlo.Predicate.toInt_ofNat_small _ (by have := l.isLt; omega)]
  omega

/-- A fold by "and" from the set bit over set bits is the set bit. -/
theorem fold_andi_one {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf a]; rfl

/-- The lookup at start words that are the positions themselves returns the table: every word is in [0, 4095], so the
    mask is set, the gather reads row l, and the select takes the gathered value. -/
theorem lookup_apply (pe : FVec Ideal S4096x128 .f32) (w : IVec S4096x1 32) (l : Fin 4096) (k : Fin 128)
    (hw : ∀ z : Fin 1, w (ix2 l z) = BitVec.ofNat 32 l.val) :
    select (broadcastInDim S4096x128 ![0] bcast_S4096_S4096x128_0
          (Host.reduce IntOp.andi
            (andi (cmpi .sge w (broadcastInDim S4096x1 ![] bcast_S_S4096x1 (constantI S_ 32 0#32)))
              (cmpi .sle w (broadcastInDim S4096x1 ![0, 1] bcast_S1x1_S4096x1_0_1
                (broadcastInDim S1x1 ![1] bcast_S1_S1x1_1 (constantI S1 32 4095#32)))))
            (constantI S_ 1 1#1) reducesTo_S4096x1_S4096_d1 h_S_))
        (Host.gather gather_S4096x128_S4096x1_S4096x128_1_0_n_n_0_1_1128 pe w)
        (broadcastInDim S4096x128 ![] bcast_S_S4096x128 (constant (F := Ideal) S_ .f32 0x7FC00000#32)) (ix2 l k)
      = pe (ix2 l k) := by
  have hl := l.isLt
  have hti : (BitVec.ofNat 32 l.val).toInt = l.val := StableHlo.Predicate.toInt_ofNat_small _ (by omega)
  have hmask : Host.reduce IntOp.andi
      (andi (cmpi .sge w (broadcastInDim S4096x1 ![] bcast_S_S4096x1 (constantI S_ 32 0#32)))
        (cmpi .sle w (broadcastInDim S4096x1 ![0, 1] bcast_S1x1_S4096x1_0_1
          (broadcastInDim S1x1 ![1] bcast_S1_S1x1_1 (constantI S1 32 4095#32)))))
      (constantI S_ 1 1#1) reducesTo_S4096x1_S4096_d1 h_S_ (ix1 l) = 1#1 := by
    have hR : S4096x1.Reduces [1] S4096 :=
      ⟨reducesTo_S4096x1_S4096_d1.1, Nat.one_pos, reducesTo_S4096x1_S4096_d1.2⟩
    rw [Host.reduce_eq_fold_single IntOp.andi _ _ reducesTo_S4096x1_S4096_d1 hR h_S_]
    refine fold_andi_one (ι := Fin 1) _ _ fun z => ?_
    have hz : hR.lift (ix1 l) z = ix2 l z := funext fun a => Fin.ext (by
      match a with
      | ⟨0, _⟩ => rfl
      | ⟨1, _⟩ => rfl)
    show andi (cmpi .sge w (broadcastInDim S4096x1 ![] bcast_S_S4096x1 (constantI S_ 32 0#32)))
        (cmpi .sle w (broadcastInDim S4096x1 ![0, 1] bcast_S1x1_S4096x1_0_1
          (broadcastInDim S1x1 ![1] bcast_S1_S1x1_1 (constantI S1 32 4095#32)))) (hR.lift (ix1 l) z) = 1#1
    rw [hz]
    show IntOp.andi
        (IntOp.cmpi .sge (w (ix2 l z)) (broadcastInDim S4096x1 ![] bcast_S_S4096x1 (constantI S_ 32 0#32) (ix2 l z)))
        (IntOp.cmpi .sle (w (ix2 l z)) (broadcastInDim S4096x1 ![0, 1] bcast_S1x1_S4096x1_0_1
          (broadcastInDim S1x1 ![1] bcast_S1_S1x1_1 (constantI S1 32 4095#32)) (ix2 l z))) = 1#1
    rw [hw, Hand.bcastScalar_apply, Hand.bcastRows_apply, Hand.bcastRow_apply]
    show IntOp.andi (IntOp.cmpi .sge (BitVec.ofNat 32 l.val) 0#32) (IntOp.cmpi .sle (BitVec.ofNat 32 l.val) 4095#32) = 1#1
    rw [IntOp.andi_eq_one, IntOp.cmpi_sge, IntOp.cmpi_sle, hti,
      show (0#32 : BitVec 32).toInt = 0 by decide, show (4095#32 : BitVec 32).toInt = 4095 by decide]
    omega
  have hg : Host.gather gather_S4096x128_S4096x1_S4096x128_1_0_n_n_0_1_1128 pe w (ix2 l k) = pe (ix2 l k) := by
    refine (Hand.rowGather_apply_of_eq (N := 4096) (E := 4096) (D := 128) (by decide)
      gather_S4096x128_S4096x1_S4096x128_1_0_n_n_0_1_1128_wf pe w l k (BitVec.ofNat 32 l.val) (hw 0)).trans
      (congrArg pe ?_)
    refine congrArg (fun a : Fin 4096 => ix2 a k) (Fin.ext ?_)
    show min (BitVec.ofNat 32 l.val).toInt.toNat (4096 - 1) = l.val
    rw [hti]
    omega
  rw [select_apply, bcastOfRow_apply, hmask, select_one, hg]

/-- The looked-up rows are the position table. -/
theorem takeRows_apply (pe : FVec Ideal S4096x128 .f32) (l : Fin 4096) (k : Fin 128) :
    Term.takeRows (F := Ideal) pe (ix2 l k) = pe (ix2 l k) := by
  unfold Term.takeRows
  exact lookup_apply pe _ l k fun z => startWord_apply l z

/-! ## The mean and the variance of a row -/

/-- The mean as the reference spells it, at (bi, l, 0): the reference's mean of the row k ↦ h (bi, l, k). -/
theorem meanRows_apply (h : FVec Ideal S16x4096x128 .f32) (bi : Fin 16) (l : Fin 4096) (z : Fin 1) :
    Host.divf (F := Ideal)
        (broadcastInDim S16x4096x1 ![0, 1] bcast_S16x4096_S16x4096x1_0_1
          (Host.reduceAdd (F := Ideal) h (constant (F := Ideal) S_ .f32 0x00000000#32) reducesTo_S16x4096x128_S16x4096_d2 h_S_))
        (broadcastInDim S16x4096x1 ![] bcast_S_S16x4096x1 (constant (F := Ideal) S_ .f32 0x43000000#32)) (ix3 bi l z)
      = refMean (fun k => h (ix3 bi l k)) := by
  show Ideal.div
      (broadcastInDim S16x4096x1 ![0, 1] bcast_S16x4096_S16x4096x1_0_1
        (Host.reduceAdd (F := Ideal) h (constant (F := Ideal) S_ .f32 0x00000000#32) reducesTo_S16x4096x128_S16x4096_d2 h_S_) (ix3 bi l z))
      (broadcastInDim S16x4096x1 ![] bcast_S_S16x4096x1 (constant (F := Ideal) S_ .f32 0x43000000#32) (ix3 bi l z)) = _
  rw [bcastUnit_apply, Hand.bcastScalar_apply, rowSum_apply]
  rfl

/-- The host's quotient at an index divides the entries. -/
theorem hostDivf_at {s : Shape} (a b : FVec Ideal s .f32) (i : s.Idx) :
    Host.divf (F := Ideal) a b i = Ideal.div (a i) (b i) := rfl

/-- The host's square root at an index is the entry's square root. -/
theorem hostSqrt_at {s : Shape} (a : FVec Ideal s .f32) (i : s.Idx) :
    Host.sqrt (F := Ideal) a i = Ideal.sqrt (a i) := rfl

/-- The divisor of the squared deviations: the count less the converted integer zero. -/
theorem count_apply :
    subf (constant (F := Ideal) S_ .f32 0x43000000#32) (sitofp .f32 (constantI S_ 32 0#32)) ix0 = refCount := by
  rw [subf_apply, sitofp_apply, constant_apply]
  rfl

/-- The guard: the divisor compared with zero. -/
theorem guard_apply :
    cmpf .ogt (subf (constant (F := Ideal) S_ .f32 0x43000000#32) (sitofp .f32 (constantI S_ 32 0#32)))
        (constant (F := Ideal) S_ .f32 0x00000000#32) ix0 = Ideal.cmp .ogt refCount wZero := by
  rw [cmpf_apply, count_apply, constant_apply]
  rfl

/-- The sum of the squared deviations from a row statistic m, at (bi, l, 0): the zero word plus the sum over the
    features of the squared deviation from the statistic's value at (bi, l, 0). -/
theorem sqDevSum_apply (h : FVec Ideal S16x4096x128 .f32) (m : FVec Ideal S16x4096x1 .f32) (c : EReal)
    (bi : Fin 16) (l : Fin 4096) (z : Fin 1) (hm : m (ix3 bi l 0) = c) :
    broadcastInDim S16x4096x1 ![0, 1] bcast_S16x4096_S16x4096x1_0_1
        (Host.reduceAdd (F := Ideal)
          (mulf (subf h (broadcastInDim S16x4096x128 ![0, 1, 2] bcast_S16x4096x1_S16x4096x128_0_1_2 m))
            (subf h (broadcastInDim S16x4096x128 ![0, 1, 2] bcast_S16x4096x1_S16x4096x128_0_1_2 m)))
          (constant (F := Ideal) S_ .f32 0x00000000#32) reducesTo_S16x4096x128_S16x4096_d2 h_S_) (ix3 bi l z)
      = wZero + ∑ k : Fin 128, (h (ix3 bi l k) - c) * (h (ix3 bi l k) - c) := by
  rw [bcastUnit_apply, rowSum_apply]
  refine congrArg (wZero + ·) (Finset.sum_congr rfl fun k _ => ?_)
  rw [mulf_apply, subf_apply, bcastFeat3_apply, hm]

/-- The variance as the reference spells it, at (bi, l, 0): the reference's variance of the row k ↦ h (bi, l, k). -/
theorem varRows_apply (h : FVec Ideal S16x4096x128 .f32) (bi : Fin 16) (l : Fin 4096) (z : Fin 1) :
    Term.varRows (F := Ideal) h (ix3 bi l z) = refVar (fun k => h (ix3 bi l k)) := by
  unfold Term.varRows
  rw [select_apply, Hand.bcastScalar_apply, Hand.bcastScalar_apply, guard_apply, hostDivf_at,
    sqDevSum_apply h _ _ bi l z (meanRows_apply h bi l 0), Hand.bcastScalar_apply, count_apply, id_eq, constant_apply]
  rfl

/-! ## The rows, their normalisation, and the whole term -/

/-- The rows the reference normalises, at (bi, l, k): the transposed activation plus the looked-up table entry. -/
theorem rows_apply (x : FVec Ideal S16x128x4096 .f32) (pe : FVec Ideal S4096x128 .f32)
    (bi : Fin 16) (l : Fin 4096) (k : Fin 128) :
    addf (transpose S16x4096x128 [0, 2, 1] x transposes_S16x128x4096_S16x4096x128_0_2_1)
        (broadcastInDim S16x4096x128 ![0, 1, 2] bcast_S1x4096x128_S16x4096x128_0_1_2
          (broadcastInDim S1x4096x128 ![1, 2] bcast_S4096x128_S1x4096x128_1_2 (Term.takeRows (F := Ideal) pe)))
        (ix3 bi l k)
      = x (ix3 bi k l) + pe (ix2 l k) := by
  rw [addf_apply, transpose_ix3_021_apply, bcastBatch_apply, bcastLead_apply, takeRows_apply]

/-- A row array normalised, scaled and shifted as the reference spells it, at (bi, l, d): the reference's spelling of
    the row k ↦ v (bi, l, k) at d. -/
theorem normRows_apply (v : FVec Ideal S16x4096x128 .f32) (gm bt : FVec Ideal S128 .f32)
    (bi : Fin 16) (l : Fin 4096) (d : Fin 128) :
    addf
        (mulf
          (Host.divf (F := Ideal)
            (subf v
              (broadcastInDim S16x4096x128 ![0, 1, 2] bcast_S16x4096x1_S16x4096x128_0_1_2
                (Host.divf (F := Ideal)
                  (broadcastInDim S16x4096x1 ![0, 1] bcast_S16x4096_S16x4096x1_0_1
                    (Host.reduceAdd (F := Ideal) v (constant (F := Ideal) S_ .f32 0x00000000#32)
                      reducesTo_S16x4096x128_S16x4096_d2 h_S_))
                  (broadcastInDim S16x4096x1 ![] bcast_S_S16x4096x1 (constant (F := Ideal) S_ .f32 0x43000000#32)))))
            (broadcastInDim S16x4096x128 ![0, 1, 2] bcast_S16x4096x1_S16x4096x128_0_1_2
              (Host.sqrt (F := Ideal)
                (addf (Term.varRows (F := Ideal) v)
                  (broadcastInDim S16x4096x1 ![] bcast_S_S16x4096x1 (constant (F := Ideal) S_ .f32 0x3727C5AC#32))))))
          (broadcastInDim S16x4096x128 ![0, 1, 2] bcast_S1x1x128_S16x4096x128_0_1_2
            (broadcastInDim S1x1x128 ![2] bcast_S128_S1x1x128_2 gm)))
        (broadcastInDim S16x4096x128 ![0, 1, 2] bcast_S1x1x128_S16x4096x128_0_1_2
          (broadcastInDim S1x1x128 ![2] bcast_S128_S1x1x128_2 bt))
        (ix3 bi l d)
      = refRow (fun k => v (ix3 bi l k)) d (gm (ix1 d)) (bt (ix1 d)) := by
  rw [addf_apply, mulf_apply, hostDivf_at, subf_apply, bcastFeat3_apply, bcastFeat3_apply, meanRows_apply,
    hostSqrt_at, addf_apply, varRows_apply, Hand.bcastScalar_apply, constant_apply,
    bcastRows3_apply, bcastRows3_apply, bcastVec3_apply, bcastVec3_apply]
  rfl

/-- The reference's term at [bi, d, l] is its spelling of the row's normalisation: no finiteness needed. -/
theorem refTerm_apply (x : FVec Ideal S16x128x4096 .f32) (pe : FVec Ideal S4096x128 .f32) (gm bt : FVec Ideal S128 .f32)
    (bi : Fin 16) (d : Fin 128) (l : Fin 4096) :
    Term.refTerm (F := Ideal) x pe gm bt (ix3 bi d l)
      = refRow (fun k => x (ix3 bi k l) + pe (ix2 l k)) d (gm (ix1 d)) (bt (ix1 d)) := by
  unfold Term.refTerm
  rw [transpose_ix3_021_apply, normRows_apply]
  exact congrArg (fun u : Fin 128 → EReal => refRow u d (gm (ix1 d)) (bt (ix1 d)))
    (funext fun k => rows_apply x pe bi l k)

/-- On real activations and a real position table the reference's term is the specification. -/
theorem refTerm_eq_G (x : FVec Ideal S16x128x4096 .f32) (pe : FVec Ideal S4096x128 .f32) (gm bt : FVec Ideal S128 .f32)
    (hx : ∀ i, ∃ r : ℝ, x i = (r : EReal)) (hpe : ∀ i, ∃ r : ℝ, pe i = (r : EReal)) :
    Term.refTerm (F := Ideal) x pe gm bt = G x pe gm bt := by
  funext i
  obtain ⟨bi, d, l, rfl⟩ : ∃ (bi : Fin 16) (d : Fin 128) (l : Fin 4096), i = ix3 bi d l := ⟨i 0, i 1, i 2, eq_ix3 i⟩
  rw [refTerm_apply, G_apply]
  refine refRow_eq_kerRow _ (fun k => ?_) d _ _
  obtain ⟨a, ha⟩ := hx (ix3 bi k l)
  obtain ⟨c, hc⟩ := hpe (ix2 l k)
  exact ⟨a + c, by rw [ha, hc, EReal.coe_add]⟩

end Cert.ReferenceIdeal.RefValue

end
-- ==== Proof.Finite.lean ====
/-
  From the precondition to real entries.

  The precondition says, of each float argument, that every entry's absolute value is below +∞, and conjoins the
  four statements.  An extended real whose absolute value is below +∞ is a real number, so under the precondition
  every entry of the activations and of the position table is real.
-/
import proofs.«158804_g21612275433595_cont_8to1_1535_8_alg».proof.Proof.Gen.Pre_finite_inputs
import Idealize.ShloMosaic.PureOps.Ideal
import Idealize.ShloMosaic.Lib.ValueIdx
import Idealize.ShloMosaic.Lib.ReduceAll

noncomputable section

namespace Cert.Finite

open Cert.Pre_finite_inputs Cert.Pre_finite_inputs.Gen Idealize.ShloMosaic Idealize.ShloMosaic.ValueIdx

/-- The word `0x7F800000` denotes +∞. -/
theorem inf_word : Ideal.ofBits .f32 0x7F800000#32 = (⊤ : EReal) := by
  simp [Ideal.ofBits, Ideal.ieee]

/-- An extended real whose absolute value is below +∞ is a real number: both infinities have absolute value +∞. -/
theorem real_of_abs_lt_top (a : EReal) (h : max a (-a) < ⊤) : ∃ r : ℝ, a = (r : EReal) := by
  induction a using EReal.rec with
  | bot => simp at h
  | coe r => exact ⟨r, rfl⟩
  | top => simp at h

/-- The element test of the precondition, read back: an entry that passes `|a| < +∞` is real. -/
theorem real_of_test (a : Ideal .f32)
    (h : FloatOps.cmpf .olt (FloatOps.hostAbsf a) (FloatOps.ofBits (F := Ideal) .f32 0x7F800000#32) = 1#1) :
    ∃ r : ℝ, a = (r : EReal) := by
  refine real_of_abs_lt_top a ?_
  rw [← inf_word]
  by_contra hn
  have : FloatOps.cmpf .olt (FloatOps.hostAbsf a) (FloatOps.ofBits (F := Ideal) .f32 0x7F800000#32) = 0#1 := by
    show BitVec.ofBool (decide (max a (-a) < Ideal.ofBits .f32 0x7F800000#32)) = 0#1
    simp [hn]
  rw [this] at h
  exact absurd h (by decide)

/-- Under the precondition every entry of the first two arguments is a real number. -/
theorem real_of_pre (x : FVec Ideal S16x128x4096 .f32) (pe : FVec Ideal S4096x128 .f32) (g b : FVec Ideal S128 .f32)
    (h : Cert.Pre_finite_inputs.fn (F := Ideal) x pe g b = fun _ => 1#1) :
    (∀ i, ∃ r : ℝ, x i = (r : EReal)) ∧ (∀ i, ∃ r : ℝ, pe i = (r : EReal)) := by
  haveI : Subsingleton S_.Idx := ⟨fun a b => funext fun d => d.elim0⟩
  have h0 := congrFun h ValueIdx.ix0
  dsimp only [Cert.Pre_finite_inputs.fn, Cert.Pre_finite_inputs.fn_part1] at h0
  obtain ⟨h123, _⟩ := IntOp.andi_eq_one.1 h0
  obtain ⟨h12, _⟩ := IntOp.andi_eq_one.1 h123
  obtain ⟨h1, h2⟩ := IntOp.andi_eq_one.1 h12
  refine ⟨fun i => ?_, fun i => ?_⟩
  · have e := Host.reduce_andi_all _ _ _ _ _ h1 i
    exact real_of_test (x i) e
  · have e := Host.reduce_andi_all _ _ _ _ _ h2 i
    exact real_of_test (pe i) e

end Cert.Finite

end
-- ==== Proof.lean ====
/-
  The five claims about the fused add-and-layer-normalisation kernel and its reference.

  The three frames: the two kernel programs' are the generated ones; the reference's is its run with the result
  forgotten.  The idealized kernel is the kernel's own text read over the extended reals, so nothing is owed for
  `preserves`.  For the value claim: the idealized kernel ends with its result at the specification `G` of the
  argument arrays; the reference ends with its result at its own term of arrays that agree with those; the
  precondition makes the activations and the position table real, and on real inputs the reference's term is `G`.
-/
import proofs.«158804_g21612275433595_cont_8to1_1535_8_alg».proof.Defs
import proofs.«158804_g21612275433595_cont_8to1_1535_8_alg».proof.Proof.Gen.Kernel
import proofs.«158804_g21612275433595_cont_8to1_1535_8_alg».proof.Proof.Gen.Kernel.Frame
import proofs.«158804_g21612275433595_cont_8to1_1535_8_alg».proof.Proof.Gen.KernelIdeal
import proofs.«158804_g21612275433595_cont_8to1_1535_8_alg».proof.Proof.Gen.KernelIdeal.Frame
import proofs.«158804_g21612275433595_cont_8to1_1535_8_alg».proof.Proof.Gen.ReferenceIdeal
import proofs.«158804_g21612275433595_cont_8to1_1535_8_alg».proof.Proof.Gen.Pre_finite_inputs
import proofs.«158804_g21612275433595_cont_8to1_1535_8_alg».proof.Proof.Spec
import proofs.«158804_g21612275433595_cont_8to1_1535_8_alg».proof.Proof.KerValue
import proofs.«158804_g21612275433595_cont_8to1_1535_8_alg».proof.Proof.RefRun
import proofs.«158804_g21612275433595_cont_8to1_1535_8_alg».proof.Proof.RefValue
import proofs.«158804_g21612275433595_cont_8to1_1535_8_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.HandRun.run (F := Ideal) m ρ)

/-- Both programs end at the specification of the (agreeing) argument arrays. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2]
  obtain ⟨hx, hpe⟩ := Cert.Finite.real_of_pre _ _ _ _ (hpre c)
  exact Cert.ReferenceIdeal.RefValue.refTerm_eq_G _ _ _ _ hx hpe

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
